-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_v0) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x36x128 : Shape := ⟨3, ![16384, 36, 128]⟩
abbrev S36 : Shape := ⟨1, ![36]⟩
abbrev S128x128 : Shape := ⟨2, ![128, 128]⟩
abbrev S128 : Shape := ⟨1, ![128]⟩
abbrev S_ : Shape := ⟨0, ![]⟩

class Facts : Prop where
  bcast_S_S16384x36x128 : S_.BroadcastsInDim S16384x36x128 (![] : Fin 0 → Fin S16384x36x128.rank)
  reducesTo_S16384x36x128_S_d0_1_2 : S16384x36x128.ReducesTo [0, 1, 2] S_
  h_S_ : 0 < S_.numel
  bcast_S_S36 : S_.BroadcastsInDim S36 (![] : Fin 0 → Fin S36.rank)
  reducesTo_S36_S_d0 : S36.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S16384x36x128 .f32) (main_arg1 : FVec F S36 .f32) (main_arg2 : FVec F S128x128 .f32) (main_arg3 : FVec F S128 .f32) : IVec S_ 1 :=
  let main_v0 : FVec F S16384x36x128 .f32 := Host.absf main_arg0
  let main_cst : FVec F S_ .f32 := constant S_ .f32 0x7F800000#32
  let main_v1 : FVec F S16384x36x128 .f32 := broadcastInDim S16384x36x128 ![] bcast_S_S16384x36x128 main_cst
  let main_v2 : IVec S16384x36x128 1 := cmpf .olt main_v0 main_v1
  let main_c : IVec S_ 1 := constantI S_ 1 1#1
  let main_v3 : IVec S_ 1 := (fun x v => Host.reduce IntOp.andi x v reducesTo_S16384x36x128_S_d0_1_2 h_S_) main_v2 main_c
  let main_v4 : FVec F S36 .f32 := Host.absf main_arg1
  let main_cst_0 : FVec F S_ .f32 := constant S_ .f32 0x7F800000#32
  let main_v5 : FVec F S36 .f32 := broadcastInDim S36 ![] bcast_S_S36 main_cst_0
  let main_v6 : IVec S36 1 := cmpf .olt main_v4 main_v5
  let main_c_1 : IVec S_ 1 := constantI S_ 1 1#1
  let main_v7 : IVec S_ 1 := (fun x v => Host.reduce IntOp.andi x v reducesTo_S36_S_d0 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S16384x36x128 : Shape := ⟨3, ![16384, 36, 128]⟩
abbrev S36 : Shape := ⟨1, ![36]⟩
abbrev S128x128 : Shape := ⟨2, ![128, 128]⟩
abbrev S128 : Shape := ⟨1, ![128]⟩
abbrev S16384x4608 : Shape := ⟨2, ![16384, 4608]⟩
abbrev S1x36 : Shape := ⟨2, ![1, 36]⟩
abbrev S1x128 : Shape := ⟨2, ![1, 128]⟩
abbrev S16384x1536 : Shape := ⟨2, ![16384, 1536]⟩
abbrev S256x4608 : Shape := ⟨2, ![256, 4608]⟩
abbrev S256x1536 : Shape := ⟨2, ![256, 1536]⟩
abbrev S256x128 : Shape := ⟨2, ![256, 128]⟩
abbrev S1x1 : Shape := ⟨2, ![1, 1]⟩
abbrev S16384x12x128 : Shape := ⟨3, ![16384, 12, 128]⟩

abbrev nBuf : Space → Nat
  | .hbm => 11
  | .vmem => 8
  | .smem => 0
  | _ => 0

abbrev bufTy : (tb : Table) → Fin (tcTables nBuf tb) → BufTy
  | .hbm, ⟨0, _⟩ => ⟨S16384x36x128, .f32⟩
  | .hbm, ⟨1, _⟩ => ⟨S36, .f32⟩
  | .hbm, ⟨2, _⟩ => ⟨S128x128, .f32⟩
  | .hbm, ⟨3, _⟩ => ⟨S128, .f32⟩
  | .hbm, ⟨4, _⟩ => ⟨S16384x4608, .f32⟩
  | .hbm, ⟨5, _⟩ => ⟨S1x36, .f32⟩
  | .hbm, ⟨6, _⟩ => ⟨S1x128, .f32⟩
  | .hbm, ⟨7, _⟩ => ⟨S16384x1536, .f32⟩
  | .hbm, ⟨8, _⟩ => ⟨S1x36, .f32⟩
  | .hbm, ⟨9, _⟩ => ⟨S16384x12x128, .f32⟩
  | .hbm, ⟨10, _⟩ => ⟨S36, .f32⟩
  | .local _ .vmem, ⟨0, _⟩ => ⟨S1x36, .f32⟩
  | .local _ .vmem, ⟨1, _⟩ => ⟨S128x128, .f32⟩
  | .local _ .vmem, ⟨2, _⟩ => ⟨S1x128, .f32⟩
  | .local _ .vmem, ⟨3, _⟩ => ⟨S256x4608, .f32⟩
  | .local _ .vmem, ⟨4, _⟩ => ⟨S256x4608, .f32⟩
  | .local _ .vmem, ⟨5, _⟩ => ⟨S256x1536, .f32⟩
  | .local _ .vmem, ⟨6, _⟩ => ⟨S256x1536, .f32⟩
  | .local _ .vmem, ⟨7, _⟩ => ⟨S1x36, .f32⟩
  | _, _ => ⟨S16384x36x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1x36 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x4608 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x36 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

class Facts₀ : Prop where
  shapeCasts_S16384x36x128_S16384x4608 : S16384x36x128.ShapeCasts S16384x4608
  shapeCasts_S36_S1x36 : S36.ShapeCasts S1x36
  shapeCasts_S128_S1x128 : S128.ShapeCasts S1x128
  inb_S1x36_S1x36_0_0 : ∀ a, (![0, 0] : Fin 2 → Nat) a + S1x36.size a ≤ S1x36.size a
  h_S1x36 : 0 < S1x36.numel
  shapeCasts_S1x36_S1x36 : S1x36.ShapeCasts S1x36
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S256x4608_S256x128_0_0 : ∀ a, (![0, 0] : Fin 2 → Nat) a + S256x128.size a ≤ S256x4608.size a
  h_S256x128 : 0 < S256x128.numel
  shapeCasts_S256x128_S256x128 : S256x128.ShapeCasts S256x128
  slices_S1x36_o0_0_S1x1 : S1x36.Slices ![0, 0] S1x1
  broadcasts_S1x1_S256x128 : S1x1.Broadcasts S256x128
  inb_S256x4608_S256x128_0_128 : ∀ a, (![0, 128] : Fin 2 → Nat) a + S256x128.size a ≤ S256x4608.size a
  slices_S1x36_o0_1_S1x1 : S1x36.Slices ![0, 1] S1x1
  inb_S256x4608_S256x128_0_256 : ∀ a, (![0, 256] : Fin 2 → Nat) a + S256x128.size a ≤ S256x4608.size a
  slices_S1x36_o0_2_S1x1 : S1x36.Slices ![0, 2] S1x1
  inb_S256x4608_S256x128_0_384 : ∀ a, (![0, 384] : Fin 2 → Nat) a + S256x128.size a ≤ S256x4608.size a
  slices_S1x36_o0_3_S1x1 : S1x36.Slices ![0, 3] S1x1
  inb_S256x4608_S256x128_0_512 : ∀ a, (![0, 512] : Fin 2 → Nat) a + S256x128.size a ≤ S256x4608.size a
  slices_S1x36_o0_4_S1x1 : S1x36.Slices ![0, 4] S1x1
  inb_S256x4608_S256x128_0_640 : ∀ a, (![0, 640] : Fin 2 → Nat) a + S256x128.size a ≤ S256x4608.size a
  slices_S1x36_o0_5_S1x1 : S1x36.Slices ![0, 5] S1x1
  inb_S256x4608_S256x128_0_768 : ∀ a, (![0, 768] : Fin 2 → Nat) a + S256x128.size a ≤ S256x4608.size a
  slices_S1x36_o0_6_S1x1 : S1x36.Slices ![0, 6] S1x1
  inb_S256x4608_S256x128_0_896 : ∀ a, (![0, 896] : Fin 2 → Nat) a + S256x128.size a ≤ S256x4608.size a
  slices_S1x36_o0_7_S1x1 : S1x36.Slices ![0, 7] S1x1
  inb_S256x4608_S256x128_0_1024 : ∀ a, (![0, 1024] : Fin 2 → Nat) a + S256x128.size a ≤ S256x4608.size a
  slices_S1x36_o0_8_S1x1 : S1x36.Slices ![0, 8] S1x1
  inb_S256x4608_S256x128_0_1152 : ∀ a, (![0, 1152] : Fin 2 → Nat) a + S256x128.size a ≤ S256x4608.size a
  slices_S1x36_o0_9_S1x1 : S1x36.Slices ![0, 9] S1x1
  inb_S256x4608_S256x128_0_1280 : ∀ a, (![0, 1280] : Fin 2 → Nat) a + S256x128.size a ≤ S256x4608.size a
  slices_S1x36_o0_10_S1x1 : S1x36.Slices ![0, 10] S1x1
  inb_S256x4608_S256x128_0_1408 : ∀ a, (![0, 1408] : Fin 2 → Nat) a + S256x128.size a ≤ S256x4608.size a
  slices_S1x36_o0_11_S1x1 : S1x36.Slices ![0, 11] S1x1
  inb_S256x4608_S256x128_0_1536 : ∀ a, (![0, 1536] : Fin 2 → Nat) a + S256x128.size a ≤ S256x4608.size a
  slices_S1x36_o0_12_S1x1 : S1x36.Slices ![0, 12] S1x1
  inb_S256x4608_S256x128_0_1664 : ∀ a, (![0, 1664] : Fin 2 → Nat) a + S256x128.size a ≤ S256x4608.size a
  slices_S1x36_o0_13_S1x1 : S1x36.Slices ![0, 13] S1x1
  inb_S256x4608_S256x128_0_1792 : ∀ a, (![0, 1792] : Fin 2 → Nat) a + S256x128.size a ≤ S256x4608.size a
  slices_S1x36_o0_14_S1x1 : S1x36.Slices ![0, 14] S1x1
  inb_S256x4608_S256x128_0_1920 : ∀ a, (![0, 1920] : Fin 2 → Nat) a + S256x128.size a ≤ S256x4608.size a
  slices_S1x36_o0_15_S1x1 : S1x36.Slices ![0, 15] S1x1
  inb_S256x4608_S256x128_0_2048 : ∀ a, (![0, 2048] : Fin 2 → Nat) a + S256x128.size a ≤ S256x4608.size a
  slices_S1x36_o0_16_S1x1 : S1x36.Slices ![0, 16] S1x1
  inb_S256x4608_S256x128_0_2176 : ∀ a, (![0, 2176] : Fin 2 → Nat) a + S256x128.size a ≤ S256x4608.size a
  slices_S1x36_o0_17_S1x1 : S1x36.Slices ![0, 17] S1x1
  inb_S256x4608_S256x128_0_2304 : ∀ a, (![0, 2304] : Fin 2 → Nat) a + S256x128.size a ≤ S256x4608.size a
  slices_S1x36_o0_18_S1x1 : S1x36.Slices ![0, 18] S1x1
  inb_S256x4608_S256x128_0_2432 : ∀ a, (![0, 2432] : Fin 2 → Nat) a + S256x128.size a ≤ S256x4608.size a
  slices_S1x36_o0_19_S1x1 : S1x36.Slices ![0, 19] S1x1
  inb_S256x4608_S256x128_0_2560 : ∀ a, (![0, 2560] : Fin 2 → Nat) a + S256x128.size a ≤ S256x4608.size a
  slices_S1x36_o0_20_S1x1 : S1x36.Slices ![0, 20] S1x1
  inb_S256x4608_S256x128_0_2688 : ∀ a, (![0, 2688] : Fin 2 → Nat) a + S256x128.size a ≤ S256x4608.size a
  slices_S1x36_o0_21_S1x1 : S1x36.Slices ![0, 21] S1x1
  inb_S256x4608_S256x128_0_2816 : ∀ a, (![0, 2816] : Fin 2 → Nat) a + S256x128.size a ≤ S256x4608.size a
  slices_S1x36_o0_22_S1x1 : S1x36.Slices ![0, 22] S1x1
  inb_S256x4608_S256x128_0_2944 : ∀ a, (![0, 2944] : Fin 2 → Nat) a + S256x128.size a ≤ S256x4608.size a
  slices_S1x36_o0_23_S1x1 : S1x36.Slices ![0, 23] S1x1
  inb_S256x4608_S256x128_0_3072 : ∀ a, (![0, 3072] : Fin 2 → Nat) a + S256x128.size a ≤ S256x4608.size a
  slices_S1x36_o0_24_S1x1 : S1x36.Slices ![0, 24] S1x1
  inb_S256x4608_S256x128_0_3200 : ∀ a, (![0, 3200] : Fin 2 → Nat) a + S256x128.size a ≤ S256x4608.size a
  slices_S1x36_o0_25_S1x1 : S1x36.Slices ![0, 25] S1x1
  inb_S256x4608_S256x128_0_3328 : ∀ a, (![0, 3328] : Fin 2 → Nat) a + S256x128.size a ≤ S256x4608.size a
  slices_S1x36_o0_26_S1x1 : S1x36.Slices ![0, 26] S1x1
  inb_S256x4608_S256x128_0_3456 : ∀ a, (![0, 3456] : Fin 2 → Nat) a + S256x128.size a ≤ S256x4608.size a
  slices_S1x36_o0_27_S1x1 : S1x36.Slices ![0, 27] S1x1
  inb_S256x4608_S256x128_0_3584 : ∀ a, (![0, 3584] : Fin 2 → Nat) a + S256x128.size a ≤ S256x4608.size a
  slices_S1x36_o0_28_S1x1 : S1x36.Slices ![0, 28] S1x1
  inb_S256x4608_S256x128_0_3712 : ∀ a, (![0, 3712] : Fin 2 → Nat) a + S256x128.size a ≤ S256x4608.size a
  slices_S1x36_o0_29_S1x1 : S1x36.Slices ![0, 29] S1x1
  inb_S256x4608_S256x128_0_3840 : ∀ a, (![0, 3840] : Fin 2 → Nat) a + S256x128.size a ≤ S256x4608.size a
  slices_S1x36_o0_30_S1x1 : S1x36.Slices ![0, 30] S1x1
  inb_S256x4608_S256x128_0_3968 : ∀ a, (![0, 3968] : Fin 2 → Nat) a + S256x128.size a ≤ S256x4608.size a
  slices_S1x36_o0_31_S1x1 : S1x36.Slices ![0, 31] S1x1
  inb_S256x4608_S256x128_0_4096 : ∀ a, (![0, 4096] : Fin 2 → Nat) a + S256x128.size a ≤ S256x4608.size a
  slices_S1x36_o0_32_S1x1 : S1x36.Slices ![0, 32] S1x1
  inb_S256x4608_S256x128_0_4224 : ∀ a, (![0, 4224] : Fin 2 → Nat) a + S256x128.size a ≤ S256x4608.size a
  slices_S1x36_o0_33_S1x1 : S1x36.Slices ![0, 33] S1x1
  inb_S256x4608_S256x128_0_4352 : ∀ a, (![0, 4352] : Fin 2 → Nat) a + S256x128.size a ≤ S256x4608.size a
  slices_S1x36_o0_34_S1x1 : S1x36.Slices ![0, 34] S1x1
  inb_S256x4608_S256x128_0_4480 : ∀ a, (![0, 4480] : Fin 2 → Nat) a + S256x128.size a ≤ S256x4608.size a
  slices_S1x36_o0_35_S1x1 : S1x36.Slices ![0, 35] S1x1
  broadcasts_S1x128_S256x128 : S1x128.Broadcasts S256x128
  inb_S256x1536_S256x128_0_0 : ∀ a, (![0, 0] : Fin 2 → Nat) a + S256x128.size a ≤ S256x1536.size a
  inb_S256x1536_S256x128_0_128 : ∀ a, (![0, 128] : Fin 2 → Nat) a + S256x128.size a ≤ S256x1536.size a
  inb_S256x1536_S256x128_0_256 : ∀ a, (![0, 256] : Fin 2 → Nat) a + S256x128.size a ≤ S256x1536.size a
  inb_S256x1536_S256x128_0_384 : ∀ a, (![0, 384] : Fin 2 → Nat) a + S256x128.size a ≤ S256x1536.size a
  inb_S256x1536_S256x128_0_512 : ∀ a, (![0, 512] : Fin 2 → Nat) a + S256x128.size a ≤ S256x1536.size a
  inb_S256x1536_S256x128_0_640 : ∀ a, (![0, 640] : Fin 2 → Nat) a + S256x128.size a ≤ S256x1536.size a
  inb_S256x1536_S256x128_0_768 : ∀ a, (![0, 768] : Fin 2 → Nat) a + S256x128.size a ≤ S256x1536.size a
  inb_S256x1536_S256x128_0_896 : ∀ a, (![0, 896] : Fin 2 → Nat) a + S256x128.size a ≤ S256x1536.size a
  inb_S256x1536_S256x128_0_1024 : ∀ a, (![0, 1024] : Fin 2 → Nat) a + S256x128.size a ≤ S256x1536.size a
  inb_S256x1536_S256x128_0_1152 : ∀ a, (![0, 1152] : Fin 2 → Nat) a + S256x128.size a ≤ S256x1536.size a
  inb_S256x1536_S256x128_0_1280 : ∀ a, (![0, 1280] : Fin 2 → Nat) a + S256x128.size a ≤ S256x1536.size a
  inb_S256x1536_S256x128_0_1408 : ∀ a, (![0, 1408] : Fin 2 → Nat) a + S256x128.size a ≤ S256x1536.size a
  shapeCasts_S16384x1536_S16384x12x128 : S16384x1536.ShapeCasts S16384x12x128
  shapeCasts_S1x36_S36 : S1x36.ShapeCasts S36
  dot_S256x128_S128x128_S256x128_1_1_0_0_n_n_wf : DotDims.WF S256x128 S128x128 S256x128 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1x36.size a ≤ S1x36.size a
  hwx0_0 : ∀ i : grid0.Coords, EltTy.bits .f32 = 32 ∨ (Rect.block (s := S1x36) S1x36.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x4608.size a ≤ S16384x4608.size a
  hwx0_3 : ∀ i : grid0.Coords, EltTy.bits .f32 = 32 ∨ (Rect.block (s := S16384x4608) S256x4608.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x1536.size a ≤ S16384x1536.size a
  hwx0_4 : ∀ i : grid0.Coords, EltTy.bits .f32 = 32 ∨ (Rect.block (s := S16384x1536) S256x1536.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x36.size a ≤ S1x36.size a
  hwx0_5 : ∀ i : grid0.Coords, EltTy.bits .f32 = 32 ∨ (Rect.block (s := S1x36) S1x36.size (cc0_transform_5 i) (hinb0_5 i)).WholeWords (EltTy.packing .f32)

variable [Facts₀]

def dot_S256x128_S128x128_S256x128_1_1_0_0_n_n : DotDims S256x128 S128x128 S256x128 where
  lhsContracting := [1]
  rhsContracting := [1]
  lhsNonContracting := [0]
  rhsNonContracting := [0]
  lhsBatch := []
  rhsBatch := []
  wf := dot_S256x128_S128x128_S256x128_1_1_0_0_n_n_wf

abbrev win0_0 : Pipeline.Window sig grid0 :=
  Pipeline.Window.ofSpec (Memref.whole main_v1) S1x36.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S256x4608.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3_0) S256x1536.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v3_1) S1x36.size cc0_transform_5 reads0_5 true true 1 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S16384x36x128 : Shape := ⟨3, ![16384, 36, 128]⟩
abbrev S36 : Shape := ⟨1, ![36]⟩
abbrev S128x128 : Shape := ⟨2, ![128, 128]⟩
abbrev S128 : Shape := ⟨1, ![128]⟩
abbrev S_ : Shape := ⟨0, ![]⟩
abbrev S1x36x1 : Shape := ⟨3, ![1, 36, 1]⟩
abbrev S16384x12x128 : Shape := ⟨3, ![16384, 12, 128]⟩
abbrev S36x1 : Shape := ⟨2, ![36, 1]⟩
abbrev S1x1x128 : Shape := ⟨3, ![1, 1, 128]⟩

abbrev nBuf : Space → Nat
  | .hbm => 50
  | .vmem => 0
  | .smem => 0
  | _ => 0

abbrev bufTy : (tb : Table) → Fin (tcTables nBuf tb) → BufTy
  | .hbm, ⟨0, _⟩ => ⟨S16384x36x128, .f32⟩
  | .hbm, ⟨1, _⟩ => ⟨S36, .f32⟩
  | .hbm, ⟨2, _⟩ => ⟨S128x128, .f32⟩
  | .hbm, ⟨3, _⟩ => ⟨S128, .f32⟩
  | .hbm, ⟨4, _⟩ => ⟨S36, .i32⟩
  | .hbm, ⟨5, _⟩ => ⟨S36, .i32⟩
  | .hbm, ⟨6, _⟩ => ⟨S_, .f32⟩
  | .hbm, ⟨7, _⟩ => ⟨S36, .f32⟩
  | .hbm, ⟨8, _⟩ => ⟨S36, .f32⟩
  | .hbm, ⟨9, _⟩ => ⟨S36, .f32⟩
  | .hbm, ⟨10, _⟩ => ⟨S36, .f32⟩
  | .hbm, ⟨11, _⟩ => ⟨S36, .i1⟩
  | .hbm, ⟨12, _⟩ => ⟨S36, .f32⟩
  | .hbm, ⟨13, _⟩ => ⟨S36, .f32⟩
  | .hbm, ⟨14, _⟩ => ⟨S36, .f32⟩
  | .hbm, ⟨15, _⟩ => ⟨S36, .f32⟩
  | .hbm, ⟨16, _⟩ => ⟨S36, .f32⟩
  | .hbm, ⟨17, _⟩ => ⟨S36, .f32⟩
  | .hbm, ⟨18, _⟩ => ⟨S36, .f32⟩
  | .hbm, ⟨19, _⟩ => ⟨S36, .f32⟩
  | .hbm, ⟨20, _⟩ => ⟨S1x36x1, .f32⟩
  | .hbm, ⟨21, _⟩ => ⟨S16384x36x128, .f32⟩
  | .hbm, ⟨22, _⟩ => ⟨S16384x36x128, .f32⟩
  | .hbm, ⟨23, _⟩ => ⟨S_, .f32⟩
  | .hbm, ⟨24, _⟩ => ⟨S16384x12x128, .f32⟩
  | .hbm, ⟨25, _⟩ => ⟨S_, .i32⟩
  | .hbm, ⟨26, _⟩ => ⟨S36, .i32⟩
  | .hbm, ⟨27, _⟩ => ⟨S36, .i1⟩
  | .hbm, ⟨28, _⟩ => ⟨S_, .i32⟩
  | .hbm, ⟨29, _⟩ => ⟨S36, .i32⟩
  | .hbm, ⟨30, _⟩ => ⟨S36, .i32⟩
  | .hbm, ⟨31, _⟩ => ⟨S36, .i32⟩
  | .hbm, ⟨32, _⟩ => ⟨S36x1, .i32⟩
  | .hbm, ⟨33, _⟩ => ⟨S16384x12x128, .f32⟩
  | .hbm, ⟨34, _⟩ => ⟨S_, .i32⟩
  | .hbm, ⟨35, _⟩ => ⟨S36, .i32⟩
  | .hbm, ⟨36, _⟩ => ⟨S36, .i1⟩
  | .hbm, ⟨37, _⟩ => ⟨S_, .i32⟩
  | .hbm, ⟨38, _⟩ => ⟨S36, .i32⟩
  | .hbm, ⟨39, _⟩ => ⟨S36, .i32⟩
  | .hbm, ⟨40, _⟩ => ⟨S36, .i32⟩
  | .hbm, ⟨41, _⟩ => ⟨S36x1, .i32⟩
  | .hbm, ⟨42, _⟩ => ⟨S16384x12x128, .f32⟩
  | .hbm, ⟨43, _⟩ => ⟨S16384x12x128, .f32⟩
  | .hbm, ⟨44, _⟩ => ⟨S1x1x128, .f32⟩
  | .hbm, ⟨45, _⟩ => ⟨S16384x12x128, .f32⟩
  | .hbm, ⟨46, _⟩ => ⟨S16384x12x128, .f32⟩
  | .hbm, ⟨47, _⟩ => ⟨S_, .f32⟩
  | .hbm, ⟨48, _⟩ => ⟨S16384x12x128, .f32⟩
  | .hbm, ⟨49, _⟩ => ⟨S16384x12x128, .f32⟩
  | _, _ => ⟨S16384x36x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_call0_cst : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_cst : Ref sig .tc := ⟨.hbm, 23, rfl⟩
abbrev main_v4 : Ref sig .tc := ⟨.hbm, 24, rfl⟩
abbrev main_c_1 : Ref sig .tc := ⟨.hbm, 25, rfl⟩
abbrev main_v5 : Ref sig .tc := ⟨.hbm, 26, rfl⟩
abbrev main_v6 : Ref sig .tc := ⟨.hbm, 27, rfl⟩
abbrev main_c_2 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_c_3 : Ref sig .tc := ⟨.hbm, 34, rfl⟩
abbrev main_v12 : Ref sig .tc := ⟨.hbm, 35, rfl⟩
abbrev main_v13 : Ref sig .tc := ⟨.hbm, 36, rfl⟩
abbrev main_c_4 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_call1_cst : Ref sig .tc := ⟨.hbm, 47, rfl⟩
abbrev main_call1_v0 : Ref sig .tc := ⟨.hbm, 48, rfl⟩
abbrev main_v23 : Ref sig .tc := ⟨.hbm, 49, rfl⟩

abbrev nD : Nat := 1
abbrev τ : Topo := Topo.v7x

variable {F : FTy → Type} [FloatOps F]

class Facts₀ : Prop where
  bcast_S_S36 : S_.BroadcastsInDim S36 (![] : Fin 0 → Fin S36.rank)
  shapeCasts_S36_S1x36x1 : S36.ShapeCasts S1x36x1
  bcast_S1x36x1_S16384x36x128_0_1_2 : S1x36x1.BroadcastsInDim S16384x36x128 (![0, 1, 2] : Fin 3 → Fin S16384x36x128.rank)
  bcast_S_S16384x12x128 : S_.BroadcastsInDim S16384x12x128 (![] : Fin 0 → Fin S16384x12x128.rank)
  bcast_S36_S36x1_0 : S36.BroadcastsInDim S36x1 (![0] : Fin 1 → Fin S36x1.rank)
  bcast_S128_S1x1x128_2 : S128.BroadcastsInDim S1x1x128 (![2] : Fin 1 → Fin S1x1x128.rank)
  bcast_S1x1x128_S16384x12x128_0_1_2 : S1x1x128.BroadcastsInDim S16384x12x128 (![0, 1, 2] : Fin 3 → Fin S16384x12x128.rank)
  scatter_S16384x12x128_S36x1_S16384x36x128_02_1_1_1_wf : ScatterDims.WF S16384x12x128 S36x1 S16384x36x128 [0, 2] [1] [1] 1
  dot_S16384x12x128_S128x128_S16384x12x128_2_1_01_0_n_n_wf : DotDims.WF S16384x12x128 S128x128 S16384x12x128 [2] [1] [0, 1] [0] [] []

variable [Facts₀]

def scatter_S16384x12x128_S36x1_S16384x36x128_02_1_1_1 : ScatterDims S16384x12x128 S36x1 S16384x36x128 where
  updateWindowDims := [0, 2]
  insertedWindowDims := [1]
  scatterDimsToOperandDims := [1]
  indexVectorDim := 1
  wf := scatter_S16384x12x128_S36x1_S16384x36x128_02_1_1_1_wf
def dot_S16384x12x128_S128x128_S16384x12x128_2_1_01_0_n_n : DotDims S16384x12x128 S128x128 S16384x12x128 where
  lhsContracting := [2]
  rhsContracting := [1]
  lhsNonContracting := [0, 1]
  rhsNonContracting := [0]
  lhsBatch := []
  rhsBatch := []
  wf := dot_S16384x12x128_S128x128_S16384x12x128_2_1_01_0_n_n_wf

class Facts : Prop extends Facts₀ where

variable [Facts]
-- ==== Proof.Spec.lean ====
/-
  The function both programs compute, index by index, on the extended reals.

  Thirty-six edges join six source nodes to six destination nodes: edge `e` leaves node `e / 6` and enters node
  `6 + e % 6`. Every edge carries a feature vector of 128 entries per batch row and one scalar weight. The weight is
  passed through softplus, `max w 0 + log (1 + exp (-|w|))`; the feature vector is scaled by it; every node adds up
  the scaled vectors of the edges that touch it (six each); the sum is multiplied by the transpose of a 128 × 128
  matrix, a bias is added, and the negative part is cut off. The second result is the vector of the 36 softplus
  values.
-/
import Idealize.ShloMosaic.PureOps.Ideal.Laws
import Idealize.ShloMosaic.Lib.ValueIdx

noncomputable section

namespace Cert.Spec

open Idealize.ShloMosaic Idealize.ShloMosaic.ValueIdx

/-- The word both programs write for the float zero, read on the extended reals. -/
abbrev zeroE : EReal := Ideal.ofBits .f32 0x00000000#32

theorem zeroE_eq : zeroE = 0 := Ideal.ofBits_zero_f32

/-- Softplus as both programs spell it: the larger of `w` and zero, plus `log (1 + exp (-|w - 0|))`, the absolute
    value being the larger of a number and its negative. -/
def softplus (w : EReal) : EReal :=
  max w zeroE + Ideal.log1p (Ideal.exp (-(max (w - zeroE) (-(w - zeroE)))))

/-- The node an edge leaves. -/
def srcNode (e : Fin 36) : Fin 12 := ⟨e.val / 6, by have := e.isLt; omega⟩
/-- The node an edge enters. -/
def dstNode (e : Fin 36) : Fin 12 := ⟨6 + e.val % 6, by have := e.isLt; omega⟩

/-- Entry `d` of edge `e`'s feature vector in batch row `b`, scaled by the edge's softplus weight. -/
def wfeat (x : (⟨3, ![16384, 36, 128]⟩ : Shape).Idx → EReal) (ew : (⟨1, ![36]⟩ : Shape).Idx → EReal)
    (b : Fin 16384) (e : Fin 36) (d : Fin 128) : EReal :=
  x (ix3 b e d) * softplus (ew (ix1 e))

/-- Entry `d` of node `n`'s accumulated feature in batch row `b`: the scaled features of the edges that leave `n`
    plus those of the edges that enter it. -/
def nodeFeat (x : (⟨3, ![16384, 36, 128]⟩ : Shape).Idx → EReal) (ew : (⟨1, ![36]⟩ : Shape).Idx → EReal)
    (b : Fin 16384) (n : Fin 12) (d : Fin 128) : EReal :=
  (∑ e : Fin 36, if srcNode e = n then wfeat x ew b e d else 0)
    + (∑ e : Fin 36, if dstNode e = n then wfeat x ew b e d else 0)

/-- Output entry `(b, n, o)`: row `o` of the matrix against node `n`'s accumulated feature, plus the bias, cut at zero. -/
def nodesAt (x : (⟨3, ![16384, 36, 128]⟩ : Shape).Idx → EReal) (ew : (⟨1, ![36]⟩ : Shape).Idx → EReal)
    (W : (⟨2, ![128, 128]⟩ : Shape).Idx → EReal) (bias : (⟨1, ![128]⟩ : Shape).Idx → EReal)
    (b : Fin 16384) (n : Fin 12) (o : Fin 128) : EReal :=
  max ((∑ k : Fin 128, nodeFeat x ew b n k * W (ix2 o k)) + bias (ix1 o)) zeroE

/-- The first result, as an array over (batch row, node, output entry). -/
def nodes (x : (⟨3, ![16384, 36, 128]⟩ : Shape).Idx → EReal) (ew : (⟨1, ![36]⟩ : Shape).Idx → EReal)
    (W : (⟨2, ![128, 128]⟩ : Shape).Idx → EReal) (bias : (⟨1, ![128]⟩ : Shape).Idx → EReal) :
    (⟨3, ![16384, 12, 128]⟩ : Shape).Idx → EReal :=
  fun i => nodesAt x ew W bias (i 0) (i 1) (i 2)

/-- The second result: the 36 softplus weights. -/
def wts (ew : (⟨1, ![36]⟩ : Shape).Idx → EReal) : (⟨1, ![36]⟩ : Shape).Idx → EReal :=
  fun i => softplus (ew i)

/-- The first result with node and output entry laid side by side on one axis of 12 · 128 columns. -/
def nodesFlat (x : (⟨3, ![16384, 36, 128]⟩ : Shape).Idx → EReal) (ew : (⟨1, ![36]⟩ : Shape).Idx → EReal)
    (W : (⟨2, ![128, 128]⟩ : Shape).Idx → EReal) (bias : (⟨1, ![128]⟩ : Shape).Idx → EReal) :
    (⟨2, ![16384, 1536]⟩ : Shape).Idx → EReal :=
  fun i => nodesAt x ew W bias (i 0) ⟨(i 1).val / 128, by have := idx2_lt1 i; omega⟩ ⟨(i 1).val % 128, Nat.mod_lt _ (by decide)⟩

/-- The second result as a single row. -/
def wtsRow (ew : (⟨1, ![36]⟩ : Shape).Idx → EReal) : (⟨2, ![1, 36]⟩ : Shape).Idx → EReal :=
  fun i => softplus (ew (ix1 (i 1)))

end Cert.Spec

end
-- ==== Proof.KPay.lean ====
/-
  What one grid step leaves in its two output blocks, index by index.

  A step sees 256 batch rows. Its feature block has 36 · 128 columns, edge `e`'s vector in columns `128 e` to
  `128 e + 127`; its output block has 12 · 128 columns, node `n`'s result in columns `128 n` to `128 n + 127`.
-/
import proofs.«143436_g3865470566685_cont_8to1_b_833_3_alg».proof.Proof.Gen.KernelIdeal.Frame
import proofs.«143436_g3865470566685_cont_8to1_b_833_3_alg».proof.Proof.Spec
import Idealize.ShloMosaic.Lib.Pipeline.Value

noncomputable section

namespace Cert.KernelIdeal.Bridge

open Cert.KernelIdeal Cert.KernelIdeal.Gen Idealize.ShloMosaic Idealize.ShloMosaic.ValueIdx

/-- The column of entry `k` of edge `e`'s vector in a feature row. -/
def featCol (e : Fin 36) (k : Fin 128) : Fin 4608 := ⟨128 * e.val + k.val, by have := e.isLt; have := k.isLt; omega⟩

/-- Entry `k` of edge `e`'s scaled vector in row `p` of the step's blocks. -/
def blkFeat (x0 : S1x36.Idx → EReal) (x3 : S256x4608.Idx → EReal) (p : Fin 256) (e : Fin 36) (k : Fin 128) : EReal :=
  x3 (ix2 p (featCol e k)) * Spec.softplus (x0 (ix2 0 e))

/-- Entry `k` of node `n`'s accumulated feature in row `p` of the step's blocks. -/
def blkNode (x0 : S1x36.Idx → EReal) (x3 : S256x4608.Idx → EReal) (p : Fin 256) (n : Fin 12) (k : Fin 128) : EReal :=
  (∑ e : Fin 36, if Spec.srcNode e = n then blkFeat x0 x3 p e k else 0)
    + (∑ e : Fin 36, if Spec.dstNode e = n then blkFeat x0 x3 p e k else 0)

/-- The step's first output block at row `p`, node `n`, output entry `o`. -/
def blkAt (x0 : S1x36.Idx → EReal) (x1 : S128x128.Idx → EReal) (x2 : S1x128.Idx → EReal) (x3 : S256x4608.Idx → EReal)
    (p : Fin 256) (n : Fin 12) (o : Fin 128) : EReal :=
  max ((∑ k : Fin 128, blkNode x0 x3 p n k * x1 (ix2 o k)) + x2 (ix2 0 o)) Spec.zeroE

/-- The step's first output block. -/
def blkOut (x0 : S1x36.Idx → EReal) (x1 : S128x128.Idx → EReal) (x2 : S1x128.Idx → EReal) (x3 : S256x4608.Idx → EReal) :
    S256x1536.Idx → EReal :=
  fun y => blkAt x0 x1 x2 x3 (y 0) ⟨(y 1).val / 128, by have := idx2_lt1 y; omega⟩ ⟨(y 1).val % 128, Nat.mod_lt _ (by decide)⟩

private theorem cmp_one_self (a : EReal) : Ideal.cmp .one a a = 0#1 := by
  simp [Ideal.cmp]

private theorem zero_word_sub (t : EReal) : (Ideal.ofBits .f32 0x00000000#32 : EReal) - t = -t := by
  rw [Ideal.ofBits_zero_f32, sub_eq_add_neg, zero_add]

/-- The kernel's softplus chain is the specification's softplus, entry by entry. -/
private theorem pay1_apply (v0 : S1x36.Idx → EReal) (j : S1x36.Idx) :
    k0_pay1 (F := Ideal) v0 j = Spec.softplus (v0 j) := by
  unfold k0_pay1
  simp only [shapeCast_self]
  show Scalar.select (Ideal.cmp .one _ _) _ _ = _
  rw [cmp_one_self, select_zero]
  show max (v0 j) (Ideal.ofBits .f32 0x00000000#32) + Ideal.log1p (Ideal.exp (Ideal.ofBits .f32 0x00000000#32 - max (v0 j - Ideal.ofBits .f32 0x00000000#32) (-(v0 j - Ideal.ofBits .f32 0x00000000#32))))
    = max (v0 j) (Ideal.ofBits .f32 0x00000000#32) + Ideal.log1p (Ideal.exp (-(max (v0 j - Ideal.ofBits .f32 0x00000000#32) (-(v0 j - Ideal.ofBits .f32 0x00000000#32)))))
  rw [zero_word_sub]

/-- A load of 128 feature columns read at row `p`, entry `k`. -/
private theorem ld_x3_apply (x3 : Vec Ideal S256x4608 .f32) (off : Fin 2 → ℕ) (inb : ∀ a, off a + S256x128.size a ≤ S256x4608.size a)
    (p : Fin 256) (k : Fin 128) :
    View.ld (Val := Elt Ideal) x3 (Rect.unit (s := S256x4608) off S256x128.size inb) (ix2 p k)
      = x3 (ix2 p ⟨off 1 + k.val, by have h : off 1 + 128 ≤ 4608 := inb 1; have := k.isLt; omega⟩) := by
  have h0 : off 0 + 256 ≤ 256 := inb 0
  show x3 _ = x3 _
  refine congrArg x3 (funext fun a => Fin.ext ?_)
  match a with
  | ⟨0, _⟩ => show off 0 + 1 * p.val = p.val; omega
  | ⟨1, _⟩ => show off 1 + 1 * k.val = off 1 + k.val; omega

/-- One softplus weight spread over a 256 × 128 block reads that weight everywhere. -/
private theorem bslice_apply (w : S1x36.Idx → EReal) (off : Fin 2 → ℕ) (hs : S1x36.Slices off S1x1) (hb : S1x1.Broadcasts S256x128)
    (j : S256x128.Idx) :
    broadcastTo S256x128 (extractStridedSlice S1x1 off w hs) hb j
      = w (ix2 0 ⟨off 1, by have h : off 1 + 1 ≤ 36 := hs.2 1; omega⟩) := by
  have h0 : off 0 + 1 ≤ 1 := hs.2 0
  show w _ = w _
  refine congrArg w (funext fun a => Fin.ext ?_)
  match a with
  | ⟨0, _⟩ => show off 0 + 0 = 0; omega
  | ⟨1, _⟩ => show off 1 + 0 = off 1; omega

/-- The bias row spread over a 256 × 128 block reads the bias of the column. -/
private theorem bias_apply (b : S1x128.Idx → EReal) (hc : S1x128.ShapeCasts S1x128) (hb : S1x128.Broadcasts S256x128)
    (p : Fin 256) (q : Fin 128) :
    broadcastTo S256x128 (shapeCast S1x128 b hc) hb (ix2 p q) = b (ix2 0 q) := by
  rw [shapeCast_self]
  refine broadcastTo_apply b hb (ix2 p q) (ix2 0 q) fun a => ?_
  match a with
  | ⟨0, _⟩ => rfl
  | ⟨1, _⟩ => rfl

/-- Columns `c` to `c + 127` of the feature block. -/
private def featBlk (x3 : S256x4608.Idx → EReal) (c : ℕ) (hc : c + 128 ≤ 4608) : S256x128.Idx → EReal :=
  fun j => x3 (ix2 (j 0) ⟨c + (j 1).val, by have := idx2_lt1 j; omega⟩)

private theorem featBlk_apply (x3 : S256x4608.Idx → EReal) (c : ℕ) (hc : c + 128 ≤ 4608) (p : Fin 256) (k : Fin 128) :
    featBlk x3 c hc (ix2 p k) = x3 (ix2 p ⟨c + k.val, by have := k.isLt; omega⟩) := rfl

/-- A load of 128 feature columns is that block of columns. -/
private theorem ld_x3_eq (x3 : Vec Ideal S256x4608 .f32) (off : Fin 2 → ℕ) (inb : ∀ a, off a + S256x128.size a ≤ S256x4608.size a) :
    View.ld (Val := Elt Ideal) x3 (Rect.unit (s := S256x4608) off S256x128.size inb) = featBlk x3 (off 1) (inb 1) := by
  funext j
  obtain ⟨p, k, rfl⟩ : ∃ (p : Fin 256) (k : Fin 128), j = ix2 p k := ⟨j 0, j 1, eq_ix2 j⟩
  exact ld_x3_apply x3 off inb p k

/-- The same load behind a cast to its own shape. -/
private theorem cast_ld_x3_apply (x3 : Vec Ideal S256x4608 .f32) (off : Fin 2 → ℕ) (inb : ∀ a, off a + S256x128.size a ≤ S256x4608.size a)
    (hc : S256x128.ShapeCasts S256x128) (p : Fin 256) (k : Fin 128) :
    shapeCast S256x128 (View.ld (Val := Elt Ideal) x3 (Rect.unit (s := S256x4608) off S256x128.size inb)) hc (ix2 p k)
      = x3 (ix2 p ⟨off 1 + k.val, by have h : off 1 + 128 ≤ 4608 := inb 1; have := k.isLt; omega⟩) :=
  (shapeCast_apply _ hc (ix2 p k) (ix2 p k) rfl).trans (ld_x3_apply x3 off inb p k)

private theorem matmul_at (acc : FVec Ideal S256x128 .f32) (W : FVec Ideal S128x128 .f32) (p : Fin 256) (q : Fin 128) :
    matmul dot_S256x128_S128x128_S256x128_1_1_0_0_n_n none acc W (constant (F := Ideal) S256x128 .f32 0x00000000#32) (ix2 p q)
      = ∑ k : Fin 128, acc (ix2 p k) * W (ix2 q k) := by
  show FloatOps.matmul _ none acc W _ (ix2 p q) = _
  rw [Ideal.matmul_constant_zero_apply,
    ← Equiv.sum_comp (contrEquiv1 dot_S256x128_S128x128_S256x128_1_1_0_0_n_n 128 rfl rfl).symm]
  refine Finset.sum_congr rfl fun c _ => ?_
  have c2 := contrEquiv1_symm_val dot_S256x128_S128x128_S256x128_1_1_0_0_n_n 128 rfl rfl c
  have l2 : dot_S256x128_S128x128_S256x128_1_1_0_0_n_n.lhsIdx (ix2 p q) ((contrEquiv1 _ 128 rfl rfl).symm c) = ix2 p c := by
    funext ax; apply Fin.ext
    match ax with
    | ⟨0, _⟩ => simp [DotDims.lhsIdx, dot_S256x128_S128x128_S256x128_1_1_0_0_n_n]; rfl
    | ⟨1, _⟩ => simp [DotDims.lhsIdx, dot_S256x128_S128x128_S256x128_1_1_0_0_n_n]; exact c2
  have r2 : dot_S256x128_S128x128_S256x128_1_1_0_0_n_n.rhsIdx (ix2 p q) ((contrEquiv1 _ 128 rfl rfl).symm c) = ix2 q c := by
    funext ax; apply Fin.ext
    match ax with
    | ⟨0, _⟩ => simp [DotDims.rhsIdx, dot_S256x128_S128x128_S256x128_1_1_0_0_n_n]; rfl
    | ⟨1, _⟩ => simp [DotDims.rhsIdx, dot_S256x128_S128x128_S256x128_1_1_0_0_n_n]; exact c2
  rw [l2, r2]

/-- A sum over the 36 edges, edge `6 i + j` leaving node `i` and entering node `6 + j`. -/
private theorem sum_edges (g : Fin 36 → EReal) :
    ∑ e : Fin 36, g e = ∑ i : Fin 6, ∑ j : Fin 6, g ⟨6 * i.val + j.val, by have := i.isLt; have := j.isLt; omega⟩ := by
  rw [← Equiv.sum_comp (finProdFinEquiv (m := 6) (n := 6)) g, Fintype.sum_prod_type]
  refine Finset.sum_congr rfl fun i _ => Finset.sum_congr rfl fun j _ => congrArg g (Fin.ext ?_)
  show j.val + 6 * i.val = 6 * i.val + j.val
  omega

/-- The edges that leave source node `i₀` are `6 i₀`, …, `6 i₀ + 5`. -/
private theorem sum_src (f : Fin 36 → EReal) (i₀ : Fin 6) :
    (∑ e : Fin 36, if Spec.srcNode e = ⟨i₀.val, by have := i₀.isLt; omega⟩ then f e else 0)
      = ∑ j : Fin 6, f ⟨6 * i₀.val + j.val, by have := i₀.isLt; have := j.isLt; omega⟩ := by
  rw [sum_edges, Finset.sum_eq_single i₀]
  · refine Finset.sum_congr rfl fun j _ => if_pos (Fin.ext ?_)
    show (6 * i₀.val + j.val) / 6 = i₀.val
    have := j.isLt; omega
  · intro i _ hi
    refine Finset.sum_eq_zero fun j _ => if_neg fun h => hi (Fin.ext ?_)
    have h' : (6 * i.val + j.val) / 6 = i₀.val := congrArg Fin.val h
    have := j.isLt; omega
  · intro h; exact absurd (Finset.mem_univ _) h

/-- No edge enters a source node. -/
private theorem sum_dst_of_src (f : Fin 36 → EReal) (i₀ : Fin 6) :
    (∑ e : Fin 36, if Spec.dstNode e = ⟨i₀.val, by have := i₀.isLt; omega⟩ then f e else 0) = 0 := by
  refine Finset.sum_eq_zero fun e _ => if_neg fun h => ?_
  have h' : 6 + e.val % 6 = i₀.val := congrArg Fin.val h
  have := i₀.isLt; omega

/-- The edges that enter destination node `6 + j₀` are `j₀`, `6 + j₀`, …, `30 + j₀`. -/
private theorem sum_dst (f : Fin 36 → EReal) (j₀ : Fin 6) :
    (∑ e : Fin 36, if Spec.dstNode e = ⟨6 + j₀.val, by have := j₀.isLt; omega⟩ then f e else 0)
      = ∑ i : Fin 6, f ⟨6 * i.val + j₀.val, by have := i.isLt; have := j₀.isLt; omega⟩ := by
  rw [sum_edges]
  refine Finset.sum_congr rfl fun i _ => ?_
  rw [Finset.sum_eq_single j₀]
  · refine if_pos (Fin.ext ?_)
    show 6 + (6 * i.val + j₀.val) % 6 = 6 + j₀.val
    have := j₀.isLt; omega
  · intro j _ hj
    refine if_neg fun h => hj (Fin.ext ?_)
    have h' : 6 + (6 * i.val + j.val) % 6 = 6 + j₀.val := congrArg Fin.val h
    have := j.isLt; have := j₀.isLt; omega
  · intro h; exact absurd (Finset.mem_univ _) h

/-- No edge leaves a destination node. -/
private theorem sum_src_of_dst (f : Fin 36 → EReal) (j₀ : Fin 6) :
    (∑ e : Fin 36, if Spec.srcNode e = ⟨6 + j₀.val, by have := j₀.isLt; omega⟩ then f e else 0) = 0 := by
  refine Finset.sum_eq_zero fun e _ => if_neg fun h => ?_
  have h' : e.val / 6 = 6 + j₀.val := congrArg Fin.val h
  have := e.isLt; omega

private theorem zeros2 : (![0, 0] : Fin 2 → ℕ) = fun _ => 0 := by
  funext a; match a with | ⟨0, _⟩ => rfl | ⟨1, _⟩ => rfl

private theorem ld_x0 (x0 : Vec Ideal S1x36 .f32) : View.ld (Val := Elt Ideal) x0 r0_0 = x0 := View.ld_unit_zero zeros2 _ x0
private theorem ld_x1 (x1 : Vec Ideal S128x128 .f32) : View.ld (Val := Elt Ideal) x1 r0_1 = x1 := View.ld_unit_zero zeros2 _ x1
private theorem ld_x2 (x2 : Vec Ideal S1x128 .f32) : View.ld (Val := Elt Ideal) x2 r0_2 = x2 := View.ld_unit_zero zeros2 _ x2

/-- A source node's accumulated feature is the sum over its six outgoing edges. -/
private theorem blkNode_src (x0 : S1x36.Idx → EReal) (x3 : S256x4608.Idx → EReal) (p : Fin 256) (k : Fin 128) (i₀ : Fin 6) :
    blkNode x0 x3 p ⟨i₀.val, by have := i₀.isLt; omega⟩ k
      = ∑ j : Fin 6, blkFeat x0 x3 p ⟨6 * i₀.val + j.val, by have := i₀.isLt; have := j.isLt; omega⟩ k := by
  unfold blkNode
  rw [sum_src (fun e => blkFeat x0 x3 p e k), sum_dst_of_src (fun e => blkFeat x0 x3 p e k), add_zero]

/-- A destination node's accumulated feature is the sum over its six incoming edges. -/
private theorem blkNode_dst (x0 : S1x36.Idx → EReal) (x3 : S256x4608.Idx → EReal) (p : Fin 256) (k : Fin 128) (j₀ : Fin 6) :
    blkNode x0 x3 p ⟨6 + j₀.val, by have := j₀.isLt; omega⟩ k
      = ∑ i : Fin 6, blkFeat x0 x3 p ⟨6 * i.val + j₀.val, by have := i.isLt; have := j₀.isLt; omega⟩ k := by
  unfold blkNode
  rw [sum_dst (fun e => blkFeat x0 x3 p e k), sum_src_of_dst (fun e => blkFeat x0 x3 p e k), zero_add]

/-- The product with the transposed matrix, plus the bias, cut at zero, at row `p`, output entry `q`. -/
private theorem head_apply (acc : FVec Ideal S256x128 .f32) (W : FVec Ideal S128x128 .f32) (b : FVec Ideal S1x128 .f32)
    (hc : S1x128.ShapeCasts S1x128) (hb : S1x128.Broadcasts S256x128) (p : Fin 256) (q : Fin 128) :
    maximumf (addf (matmul dot_S256x128_S128x128_S256x128_1_1_0_0_n_n none acc W (constant (F := Ideal) S256x128 .f32 0x00000000#32))
        (broadcastTo S256x128 (shapeCast S1x128 b hc) hb))
      (broadcast S256x128 (Scalar.ofBits (F := Ideal) .f32 0x00000000#32)) (ix2 p q)
    = max ((∑ k : Fin 128, acc (ix2 p k) * W (ix2 q k)) + b (ix2 0 q)) Spec.zeroE := by
  rw [maximumf_apply, addf_apply, matmul_at, bias_apply]
  rfl

/-- The index of the output block under entry `(p, q)` of node `n`'s store is `(p, n, q)`. -/
private theorem blkOut_emb (x0 : S1x36.Idx → EReal) (x1 : S128x128.Idx → EReal) (x2 : S1x128.Idx → EReal) (x3 : S256x4608.Idx → EReal)
    (off : Fin 2 → ℕ) (inb : ∀ a, off a + S256x128.size a ≤ S256x1536.size a) (n : Fin 12) (h1 : off 1 = 128 * n.val)
    (p : Fin 256) (q : Fin 128) :
    blkOut x0 x1 x2 x3 ((Rect.unit (s := S256x1536) off S256x128.size inb).emb (ix2 p q)) = blkAt x0 x1 x2 x3 p n q := by
  have h0 : off 0 + 256 ≤ 256 := inb 0
  have hq := q.isLt
  unfold blkOut
  congr 1
  · apply Fin.ext; show off 0 + 1 * p.val = p.val; omega
  · apply Fin.ext; show (off 1 + 1 * q.val) / 128 = n.val; omega
  · apply Fin.ext; show (off 1 + 1 * q.val) % 128 = q.val; omega

/-- Read a chain of sums of scaled feature blocks at an index: every piece is unfolded to loads, casts, spreads, products
    and sums, and each of those is read at the index. -/
local macro "read_acc" : tactic => `(tactic| simp only [
    k0_pay3, k0_pay4, k0_pay5, k0_pay6, k0_pay7, k0_pay8, k0_pay9, k0_pay10, k0_pay11, k0_pay12, k0_pay13,
    k0_pay14, k0_pay15, k0_pay16, k0_pay17, k0_pay18, k0_pay19, k0_pay20, k0_pay21, k0_pay22, k0_pay23,
    k0_pay24, k0_pay25, k0_pay26, k0_pay27, k0_pay28, k0_pay29, k0_pay30, k0_pay31, k0_pay32, k0_pay33,
    k0_pay34, k0_pay35, k0_pay36, k0_pay37, k0_pay38, k0_pay39, k0_pay40, k0_pay41, k0_pay42, k0_pay43,
    k0_pay44, k0_pay45, k0_pay46, k0_pay47, k0_pay48, k0_pay49, k0_pay50, k0_pay51, k0_pay52, k0_pay53,
    k0_pay54, k0_pay55, k0_pay56, k0_pay57, k0_pay58, k0_pay59, k0_pay60, k0_pay61, k0_pay62, k0_pay63,
    k0_pay64, k0_pay65, k0_pay66, k0_pay67, k0_pay68, k0_pay69, k0_pay70, k0_pay71, k0_pay72, k0_pay73,
    k0_pay74, k0_pay75, k0_pay76, k0_pay77, k0_pay78, k0_pay79, ld_x3_eq, ld_x0, shapeCast_self, addf_apply,
    mulf_apply, featBlk_apply, bslice_apply, pay1_apply, Fin.sum_univ_six, blkFeat, featCol])

/-- The accumulator behind store 0 is the accumulated feature of source node 0. -/
private theorem acc0 (x0 : S1x36.Idx → EReal) (x3 : S256x4608.Idx → EReal) (p : Fin 256) (k : Fin 128) :
    k0_pay12 (F := Ideal) (k0_pay1 (View.ld x0 r0_0)) (k0_pay6 (View.ld x0 r0_0) (View.ld x3 r0_3) (View.ld x3 r0_4) (View.ld x3 r0_5)) (k0_pay7 (View.ld x3 r0_6)) (k0_pay8 (View.ld x0 r0_0)) (View.ld x3 r0_7) (View.ld x3 r0_8) (ix2 p k)
      = blkNode x0 x3 p 0 k := by
  rw [show blkNode x0 x3 p 0 k = _ from blkNode_src x0 x3 p k 0]
  read_acc
  rfl

/-- Store 0 writes node 0's output entries. -/
private theorem piece0 (x0 : S1x36.Idx → EReal) (x1 : S128x128.Idx → EReal) (x2 : S1x128.Idx → EReal) (x3 : S256x4608.Idx → EReal) (p : Fin 256) (q : Fin 128) :
    k0_pay80 (F := Ideal) (View.ld x1 r0_1) (k0_pay2 (View.ld x2 r0_2)) (k0_pay12 (k0_pay1 (View.ld x0 r0_0)) (k0_pay6 (View.ld x0 r0_0) (View.ld x3 r0_3) (View.ld x3 r0_4) (View.ld x3 r0_5)) (k0_pay7 (View.ld x3 r0_6)) (k0_pay8 (View.ld x0 r0_0)) (View.ld x3 r0_7) (View.ld x3 r0_8)) (ix2 p q)
      = blkAt x0 x1 x2 x3 p 0 q := by
  rw [ld_x1, ld_x2]
  refine (head_apply _ _ _ _ _ p q).trans ?_
  simp only [acc0]
  rfl

/-- The accumulator behind store 1 is the accumulated feature of source node 1. -/
private theorem acc1 (x0 : S1x36.Idx → EReal) (x3 : S256x4608.Idx → EReal) (p : Fin 256) (k : Fin 128) :
    k0_pay26 (F := Ideal) (k0_pay1 (View.ld x0 r0_0)) (k0_pay20 (k0_pay1 (View.ld x0 r0_0)) (View.ld x3 r0_9) (View.ld x3 r0_10) (View.ld x3 r0_11) (View.ld x3 r0_12)) (k0_pay22 (View.ld x3 r0_13)) (k0_pay23 (k0_pay1 (View.ld x0 r0_0))) (View.ld x3 r0_14) (ix2 p k)
      = blkNode x0 x3 p 1 k := by
  rw [show blkNode x0 x3 p 1 k = _ from blkNode_src x0 x3 p k 1]
  read_acc
  rfl

/-- Store 1 writes node 1's output entries. -/
private theorem piece1 (x0 : S1x36.Idx → EReal) (x1 : S128x128.Idx → EReal) (x2 : S1x128.Idx → EReal) (x3 : S256x4608.Idx → EReal) (p : Fin 256) (q : Fin 128) :
    k0_pay82 (F := Ideal) (k0_pay81 (View.ld x1 r0_1) (k0_pay2 (View.ld x2 r0_2)) (k0_pay26 (k0_pay1 (View.ld x0 r0_0)) (k0_pay20 (k0_pay1 (View.ld x0 r0_0)) (View.ld x3 r0_9) (View.ld x3 r0_10) (View.ld x3 r0_11) (View.ld x3 r0_12)) (k0_pay22 (View.ld x3 r0_13)) (k0_pay23 (k0_pay1 (View.ld x0 r0_0))) (View.ld x3 r0_14))) (Scalar.ofBits .f32 0x00000000#32) (ix2 p q)
      = blkAt x0 x1 x2 x3 p 1 q := by
  rw [ld_x1, ld_x2]
  refine (head_apply _ _ _ _ _ p q).trans ?_
  simp only [acc1]
  rfl

/-- The accumulator behind store 2 is the accumulated feature of source node 2. -/
private theorem acc2 (x0 : S1x36.Idx → EReal) (x3 : S256x4608.Idx → EReal) (p : Fin 256) (k : Fin 128) :
    k0_pay41 (F := Ideal) (k0_pay1 (View.ld x0 r0_0)) (k0_pay37 (k0_pay1 (View.ld x0 r0_0)) (View.ld x3 r0_15) (View.ld x3 r0_16) (View.ld x3 r0_17) (View.ld x3 r0_18) (View.ld x3 r0_19)) (k0_pay39 (View.ld x3 r0_20)) (ix2 p k)
      = blkNode x0 x3 p 2 k := by
  rw [show blkNode x0 x3 p 2 k = _ from blkNode_src x0 x3 p k 2]
  read_acc
  rfl

/-- Store 2 writes node 2's output entries. -/
private theorem piece2 (x0 : S1x36.Idx → EReal) (x1 : S128x128.Idx → EReal) (x2 : S1x128.Idx → EReal) (x3 : S256x4608.Idx → EReal) (p : Fin 256) (q : Fin 128) :
    k0_pay83 (F := Ideal) (View.ld x1 r0_1) (k0_pay2 (View.ld x2 r0_2)) (k0_pay41 (k0_pay1 (View.ld x0 r0_0)) (k0_pay37 (k0_pay1 (View.ld x0 r0_0)) (View.ld x3 r0_15) (View.ld x3 r0_16) (View.ld x3 r0_17) (View.ld x3 r0_18) (View.ld x3 r0_19)) (k0_pay39 (View.ld x3 r0_20))) (ix2 p q)
      = blkAt x0 x1 x2 x3 p 2 q := by
  rw [ld_x1, ld_x2]
  refine (head_apply _ _ _ _ _ p q).trans ?_
  simp only [acc2]
  rfl

/-- The accumulator behind store 3 is the accumulated feature of source node 3. -/
private theorem acc3 (x0 : S1x36.Idx → EReal) (x3 : S256x4608.Idx → EReal) (p : Fin 256) (k : Fin 128) :
    k0_pay53 (F := Ideal) (k0_pay1 (View.ld x0 r0_0)) (View.ld x3 r0_21) (View.ld x3 r0_22) (View.ld x3 r0_23) (View.ld x3 r0_24) (View.ld x3 r0_25) (View.ld x3 r0_26) (ix2 p k)
      = blkNode x0 x3 p 3 k := by
  rw [show blkNode x0 x3 p 3 k = _ from blkNode_src x0 x3 p k 3]
  read_acc
  rfl

/-- Store 3 writes node 3's output entries. -/
private theorem piece3 (x0 : S1x36.Idx → EReal) (x1 : S128x128.Idx → EReal) (x2 : S1x128.Idx → EReal) (x3 : S256x4608.Idx → EReal) (p : Fin 256) (q : Fin 128) :
    k0_pay84 (F := Ideal) (View.ld x1 r0_1) (k0_pay2 (View.ld x2 r0_2)) (k0_pay53 (k0_pay1 (View.ld x0 r0_0)) (View.ld x3 r0_21) (View.ld x3 r0_22) (View.ld x3 r0_23) (View.ld x3 r0_24) (View.ld x3 r0_25) (View.ld x3 r0_26)) (ix2 p q)
      = blkAt x0 x1 x2 x3 p 3 q := by
  rw [ld_x1, ld_x2]
  refine (head_apply _ _ _ _ _ p q).trans ?_
  simp only [acc3]
  rfl

/-- The accumulator behind store 4 is the accumulated feature of source node 4. -/
private theorem acc4 (x0 : S1x36.Idx → EReal) (x3 : S256x4608.Idx → EReal) (p : Fin 256) (k : Fin 128) :
    k0_pay65 (F := Ideal) (k0_pay1 (View.ld x0 r0_0)) (View.ld x3 r0_27) (View.ld x3 r0_28) (View.ld x3 r0_29) (View.ld x3 r0_30) (View.ld x3 r0_31) (View.ld x3 r0_32) (ix2 p k)
      = blkNode x0 x3 p 4 k := by
  rw [show blkNode x0 x3 p 4 k = _ from blkNode_src x0 x3 p k 4]
  read_acc
  rfl

/-- Store 4 writes node 4's output entries. -/
private theorem piece4 (x0 : S1x36.Idx → EReal) (x1 : S128x128.Idx → EReal) (x2 : S1x128.Idx → EReal) (x3 : S256x4608.Idx → EReal) (p : Fin 256) (q : Fin 128) :
    k0_pay85 (F := Ideal) (View.ld x1 r0_1) (k0_pay2 (View.ld x2 r0_2)) (k0_pay65 (k0_pay1 (View.ld x0 r0_0)) (View.ld x3 r0_27) (View.ld x3 r0_28) (View.ld x3 r0_29) (View.ld x3 r0_30) (View.ld x3 r0_31) (View.ld x3 r0_32)) (ix2 p q)
      = blkAt x0 x1 x2 x3 p 4 q := by
  rw [ld_x1, ld_x2]
  refine (head_apply _ _ _ _ _ p q).trans ?_
  simp only [acc4]
  rfl

/-- The accumulator behind store 5 is the accumulated feature of source node 5. -/
private theorem acc5 (x0 : S1x36.Idx → EReal) (x3 : S256x4608.Idx → EReal) (p : Fin 256) (k : Fin 128) :
    k0_pay78 (F := Ideal) (k0_pay1 (View.ld x0 r0_0)) (k0_pay67 (k0_pay1 (View.ld x0 r0_0)) (View.ld x3 r0_33)) (View.ld x3 r0_34) (View.ld x3 r0_35) (View.ld x3 r0_36) (View.ld x3 r0_37) (View.ld x3 r0_38) (ix2 p k)
      = blkNode x0 x3 p 5 k := by
  rw [show blkNode x0 x3 p 5 k = _ from blkNode_src x0 x3 p k 5]
  read_acc
  rfl

/-- Store 5 writes node 5's output entries. -/
private theorem piece5 (x0 : S1x36.Idx → EReal) (x1 : S128x128.Idx → EReal) (x2 : S1x128.Idx → EReal) (x3 : S256x4608.Idx → EReal) (p : Fin 256) (q : Fin 128) :
    k0_pay86 (F := Ideal) (View.ld x1 r0_1) (k0_pay2 (View.ld x2 r0_2)) (k0_pay78 (k0_pay1 (View.ld x0 r0_0)) (k0_pay67 (k0_pay1 (View.ld x0 r0_0)) (View.ld x3 r0_33)) (View.ld x3 r0_34) (View.ld x3 r0_35) (View.ld x3 r0_36) (View.ld x3 r0_37) (View.ld x3 r0_38)) (ix2 p q)
      = blkAt x0 x1 x2 x3 p 5 q := by
  rw [ld_x1, ld_x2]
  refine (head_apply _ _ _ _ _ p q).trans ?_
  simp only [acc5]
  rfl

/-- The accumulator behind store 6 is the accumulated feature of destination node 6. -/
private theorem acc6 (x0 : S1x36.Idx → EReal) (x3 : S256x4608.Idx → EReal) (p : Fin 256) (k : Fin 128) :
    k0_pay68 (F := Ideal) (k0_pay1 (View.ld x0 r0_0)) (k0_pay43 (k0_pay1 (View.ld x0 r0_0)) (k0_pay29 (k0_pay1 (View.ld x0 r0_0)) (k0_pay14 (k0_pay1 (View.ld x0 r0_0)) (k0_pay3 (View.ld x0 r0_0) (View.ld x3 r0_3)) (View.ld x3 r0_9)) (View.ld x3 r0_15)) (View.ld x3 r0_21)) (View.ld x3 r0_27) (View.ld x3 r0_33) (ix2 p k)
      = blkNode x0 x3 p 6 k := by
  rw [show blkNode x0 x3 p 6 k = _ from blkNode_dst x0 x3 p k 0]
  read_acc
  rfl

/-- Store 6 writes node 6's output entries. -/
private theorem piece6 (x0 : S1x36.Idx → EReal) (x1 : S128x128.Idx → EReal) (x2 : S1x128.Idx → EReal) (x3 : S256x4608.Idx → EReal) (p : Fin 256) (q : Fin 128) :
    k0_pay87 (F := Ideal) (View.ld x1 r0_1) (k0_pay2 (View.ld x2 r0_2)) (k0_pay68 (k0_pay1 (View.ld x0 r0_0)) (k0_pay43 (k0_pay1 (View.ld x0 r0_0)) (k0_pay29 (k0_pay1 (View.ld x0 r0_0)) (k0_pay14 (k0_pay1 (View.ld x0 r0_0)) (k0_pay3 (View.ld x0 r0_0) (View.ld x3 r0_3)) (View.ld x3 r0_9)) (View.ld x3 r0_15)) (View.ld x3 r0_21)) (View.ld x3 r0_27) (View.ld x3 r0_33)) (ix2 p q)
      = blkAt x0 x1 x2 x3 p 6 q := by
  rw [ld_x1, ld_x2]
  refine (head_apply _ _ _ _ _ p q).trans ?_
  simp only [acc6]
  rfl

/-- The accumulator behind store 7 is the accumulated feature of destination node 7. -/
private theorem acc7 (x0 : S1x36.Idx → EReal) (x3 : S256x4608.Idx → EReal) (p : Fin 256) (k : Fin 128) :
    k0_pay70 (F := Ideal) (k0_pay1 (View.ld x0 r0_0)) (k0_pay57 (k0_pay1 (View.ld x0 r0_0)) (k0_pay45 (k0_pay1 (View.ld x0 r0_0)) (k0_pay31 (k0_pay1 (View.ld x0 r0_0)) (k0_pay16 (k0_pay1 (View.ld x0 r0_0)) (k0_pay4 (View.ld x0 r0_0) (View.ld x3 r0_4)) (View.ld x3 r0_10)) (View.ld x3 r0_16)) (View.ld x3 r0_22)) (View.ld x3 r0_28)) (View.ld x3 r0_34) (ix2 p k)
      = blkNode x0 x3 p 7 k := by
  rw [show blkNode x0 x3 p 7 k = _ from blkNode_dst x0 x3 p k 1]
  read_acc
  rfl

/-- Store 7 writes node 7's output entries. -/
private theorem piece7 (x0 : S1x36.Idx → EReal) (x1 : S128x128.Idx → EReal) (x2 : S1x128.Idx → EReal) (x3 : S256x4608.Idx → EReal) (p : Fin 256) (q : Fin 128) :
    k0_pay88 (F := Ideal) (View.ld x1 r0_1) (k0_pay2 (View.ld x2 r0_2)) (k0_pay70 (k0_pay1 (View.ld x0 r0_0)) (k0_pay57 (k0_pay1 (View.ld x0 r0_0)) (k0_pay45 (k0_pay1 (View.ld x0 r0_0)) (k0_pay31 (k0_pay1 (View.ld x0 r0_0)) (k0_pay16 (k0_pay1 (View.ld x0 r0_0)) (k0_pay4 (View.ld x0 r0_0) (View.ld x3 r0_4)) (View.ld x3 r0_10)) (View.ld x3 r0_16)) (View.ld x3 r0_22)) (View.ld x3 r0_28)) (View.ld x3 r0_34)) (ix2 p q)
      = blkAt x0 x1 x2 x3 p 7 q := by
  rw [ld_x1, ld_x2]
  refine (head_apply _ _ _ _ _ p q).trans ?_
  simp only [acc7]
  rfl

/-- The accumulator behind store 8 is the accumulated feature of destination node 8. -/
private theorem acc8 (x0 : S1x36.Idx → EReal) (x3 : S256x4608.Idx → EReal) (p : Fin 256) (k : Fin 128) :
    k0_pay72 (F := Ideal) (k0_pay1 (View.ld x0 r0_0)) (k0_pay59 (k0_pay1 (View.ld x0 r0_0)) (k0_pay47 (k0_pay1 (View.ld x0 r0_0)) (k0_pay33 (k0_pay1 (View.ld x0 r0_0)) (k0_pay18 (k0_pay1 (View.ld x0 r0_0)) (k0_pay5 (View.ld x0 r0_0) (View.ld x3 r0_5)) (View.ld x3 r0_11)) (View.ld x3 r0_17)) (View.ld x3 r0_23)) (View.ld x3 r0_29)) (View.ld x3 r0_35) (ix2 p k)
      = blkNode x0 x3 p 8 k := by
  rw [show blkNode x0 x3 p 8 k = _ from blkNode_dst x0 x3 p k 2]
  read_acc
  rfl

/-- Store 8 writes node 8's output entries. -/
private theorem piece8 (x0 : S1x36.Idx → EReal) (x1 : S128x128.Idx → EReal) (x2 : S1x128.Idx → EReal) (x3 : S256x4608.Idx → EReal) (p : Fin 256) (q : Fin 128) :
    k0_pay89 (F := Ideal) (View.ld x1 r0_1) (k0_pay2 (View.ld x2 r0_2)) (k0_pay72 (k0_pay1 (View.ld x0 r0_0)) (k0_pay59 (k0_pay1 (View.ld x0 r0_0)) (k0_pay47 (k0_pay1 (View.ld x0 r0_0)) (k0_pay33 (k0_pay1 (View.ld x0 r0_0)) (k0_pay18 (k0_pay1 (View.ld x0 r0_0)) (k0_pay5 (View.ld x0 r0_0) (View.ld x3 r0_5)) (View.ld x3 r0_11)) (View.ld x3 r0_17)) (View.ld x3 r0_23)) (View.ld x3 r0_29)) (View.ld x3 r0_35)) (ix2 p q)
      = blkAt x0 x1 x2 x3 p 8 q := by
  rw [ld_x1, ld_x2]
  refine (head_apply _ _ _ _ _ p q).trans ?_
  simp only [acc8]
  rfl

/-- The accumulator behind store 9 is the accumulated feature of destination node 9. -/
private theorem acc9 (x0 : S1x36.Idx → EReal) (x3 : S256x4608.Idx → EReal) (p : Fin 256) (k : Fin 128) :
    k0_pay74 (F := Ideal) (k0_pay1 (View.ld x0 r0_0)) (k0_pay61 (k0_pay1 (View.ld x0 r0_0)) (k0_pay49 (k0_pay1 (View.ld x0 r0_0)) (k0_pay35 (k0_pay1 (View.ld x0 r0_0)) (k0_pay21 (k0_pay1 (View.ld x0 r0_0)) (k0_pay7 (View.ld x3 r0_6)) (k0_pay8 (View.ld x0 r0_0)) (View.ld x3 r0_12)) (View.ld x3 r0_18)) (View.ld x3 r0_24)) (View.ld x3 r0_30)) (View.ld x3 r0_36) (ix2 p k)
      = blkNode x0 x3 p 9 k := by
  rw [show blkNode x0 x3 p 9 k = _ from blkNode_dst x0 x3 p k 3]
  read_acc
  rfl

/-- Store 9 writes node 9's output entries. -/
private theorem piece9 (x0 : S1x36.Idx → EReal) (x1 : S128x128.Idx → EReal) (x2 : S1x128.Idx → EReal) (x3 : S256x4608.Idx → EReal) (p : Fin 256) (q : Fin 128) :
    k0_pay90 (F := Ideal) (View.ld x1 r0_1) (k0_pay2 (View.ld x2 r0_2)) (k0_pay74 (k0_pay1 (View.ld x0 r0_0)) (k0_pay61 (k0_pay1 (View.ld x0 r0_0)) (k0_pay49 (k0_pay1 (View.ld x0 r0_0)) (k0_pay35 (k0_pay1 (View.ld x0 r0_0)) (k0_pay21 (k0_pay1 (View.ld x0 r0_0)) (k0_pay7 (View.ld x3 r0_6)) (k0_pay8 (View.ld x0 r0_0)) (View.ld x3 r0_12)) (View.ld x3 r0_18)) (View.ld x3 r0_24)) (View.ld x3 r0_30)) (View.ld x3 r0_36)) (ix2 p q)
      = blkAt x0 x1 x2 x3 p 9 q := by
  rw [ld_x1, ld_x2]
  refine (head_apply _ _ _ _ _ p q).trans ?_
  simp only [acc9]
  rfl

/-- The accumulator behind store 10 is the accumulated feature of destination node 10. -/
private theorem acc10 (x0 : S1x36.Idx → EReal) (x3 : S256x4608.Idx → EReal) (p : Fin 256) (k : Fin 128) :
    k0_pay76 (F := Ideal) (k0_pay1 (View.ld x0 r0_0)) (k0_pay63 (k0_pay1 (View.ld x0 r0_0)) (k0_pay51 (k0_pay1 (View.ld x0 r0_0)) (k0_pay38 (k0_pay1 (View.ld x0 r0_0)) (k0_pay10 (k0_pay1 (View.ld x0 r0_0)) (View.ld x3 r0_7)) (k0_pay22 (View.ld x3 r0_13)) (k0_pay23 (k0_pay1 (View.ld x0 r0_0))) (View.ld x3 r0_19)) (View.ld x3 r0_25)) (View.ld x3 r0_31)) (View.ld x3 r0_37) (ix2 p k)
      = blkNode x0 x3 p 10 k := by
  rw [show blkNode x0 x3 p 10 k = _ from blkNode_dst x0 x3 p k 4]
  read_acc
  rfl

/-- Store 10 writes node 10's output entries. -/
private theorem piece10 (x0 : S1x36.Idx → EReal) (x1 : S128x128.Idx → EReal) (x2 : S1x128.Idx → EReal) (x3 : S256x4608.Idx → EReal) (p : Fin 256) (q : Fin 128) :
    k0_pay91 (F := Ideal) (View.ld x1 r0_1) (k0_pay2 (View.ld x2 r0_2)) (k0_pay76 (k0_pay1 (View.ld x0 r0_0)) (k0_pay63 (k0_pay1 (View.ld x0 r0_0)) (k0_pay51 (k0_pay1 (View.ld x0 r0_0)) (k0_pay38 (k0_pay1 (View.ld x0 r0_0)) (k0_pay10 (k0_pay1 (View.ld x0 r0_0)) (View.ld x3 r0_7)) (k0_pay22 (View.ld x3 r0_13)) (k0_pay23 (k0_pay1 (View.ld x0 r0_0))) (View.ld x3 r0_19)) (View.ld x3 r0_25)) (View.ld x3 r0_31)) (View.ld x3 r0_37)) (ix2 p q)
      = blkAt x0 x1 x2 x3 p 10 q := by
  rw [ld_x1, ld_x2]
  refine (head_apply _ _ _ _ _ p q).trans ?_
  simp only [acc10]
  rfl

/-- The accumulator behind store 11 is the accumulated feature of destination node 11. -/
private theorem acc11 (x0 : S1x36.Idx → EReal) (x3 : S256x4608.Idx → EReal) (p : Fin 256) (k : Fin 128) :
    k0_pay79 (F := Ideal) (k0_pay1 (View.ld x0 r0_0)) (k0_pay66 (k0_pay1 (View.ld x0 r0_0)) (k0_pay54 (k0_pay1 (View.ld x0 r0_0)) (k0_pay27 (k0_pay1 (View.ld x0 r0_0)) (k0_pay11 (k0_pay1 (View.ld x0 r0_0)) (View.ld x3 r0_8)) (View.ld x3 r0_14)) (k0_pay39 (View.ld x3 r0_20)) (View.ld x3 r0_26)) (View.ld x3 r0_32)) (View.ld x3 r0_38) (ix2 p k)
      = blkNode x0 x3 p 11 k := by
  rw [show blkNode x0 x3 p 11 k = _ from blkNode_dst x0 x3 p k 5]
  read_acc
  rfl

/-- Store 11 writes node 11's output entries. -/
private theorem piece11 (x0 : S1x36.Idx → EReal) (x1 : S128x128.Idx → EReal) (x2 : S1x128.Idx → EReal) (x3 : S256x4608.Idx → EReal) (p : Fin 256) (q : Fin 128) :
    k0_pay92 (F := Ideal) (View.ld x1 r0_1) (k0_pay2 (View.ld x2 r0_2)) (k0_pay79 (k0_pay1 (View.ld x0 r0_0)) (k0_pay66 (k0_pay1 (View.ld x0 r0_0)) (k0_pay54 (k0_pay1 (View.ld x0 r0_0)) (k0_pay27 (k0_pay1 (View.ld x0 r0_0)) (k0_pay11 (k0_pay1 (View.ld x0 r0_0)) (View.ld x3 r0_8)) (View.ld x3 r0_14)) (k0_pay39 (View.ld x3 r0_20)) (View.ld x3 r0_26)) (View.ld x3 r0_32)) (View.ld x3 r0_38)) (ix2 p q)
      = blkAt x0 x1 x2 x3 p 11 q := by
  rw [ld_x1, ld_x2]
  refine (head_apply _ _ _ _ _ p q).trans ?_
  simp only [acc11]
  rfl

/-- The twelve stores of a step fill its first output block with `blkOut` of the blocks it loaded. -/
theorem out0_4_eq (x0 : S1x36.Idx → EReal) (x1 : S128x128.Idx → EReal) (x2 : S1x128.Idx → EReal) (x3 : S256x4608.Idx → EReal) :
    out0_4 (F := Ideal) x0 x1 x2 x3 = blkOut x0 x1 x2 x3 := by
  funext y
  unfold out0_4
  refine View.canon_apply_of_pieces (Val := Elt Ideal) (blkOut x0 x1 x2 x3) _ ?_ y (cover0_4 _ _ _ _ _ _ _ _ _ _ _ _ y)
  intro pc hpc j
  rcases List.mem_cons.mp hpc with rfl | hpc
  · obtain ⟨p, q, rfl⟩ : ∃ (p : Fin 256) (q : Fin 128), j = ix2 p q := ⟨j 0, j 1, eq_ix2 j⟩
    exact (piece11 x0 x1 x2 x3 p q).trans (blkOut_emb x0 x1 x2 x3 ![0, 1408] inb_S256x1536_S256x128_0_1408 11 rfl p q).symm
  rcases List.mem_cons.mp hpc with rfl | hpc
  · obtain ⟨p, q, rfl⟩ : ∃ (p : Fin 256) (q : Fin 128), j = ix2 p q := ⟨j 0, j 1, eq_ix2 j⟩
    exact (piece10 x0 x1 x2 x3 p q).trans (blkOut_emb x0 x1 x2 x3 ![0, 1280] inb_S256x1536_S256x128_0_1280 10 rfl p q).symm
  rcases List.mem_cons.mp hpc with rfl | hpc
  · obtain ⟨p, q, rfl⟩ : ∃ (p : Fin 256) (q : Fin 128), j = ix2 p q := ⟨j 0, j 1, eq_ix2 j⟩
    exact (piece9 x0 x1 x2 x3 p q).trans (blkOut_emb x0 x1 x2 x3 ![0, 1152] inb_S256x1536_S256x128_0_1152 9 rfl p q).symm
  rcases List.mem_cons.mp hpc with rfl | hpc
  · obtain ⟨p, q, rfl⟩ : ∃ (p : Fin 256) (q : Fin 128), j = ix2 p q := ⟨j 0, j 1, eq_ix2 j⟩
    exact (piece8 x0 x1 x2 x3 p q).trans (blkOut_emb x0 x1 x2 x3 ![0, 1024] inb_S256x1536_S256x128_0_1024 8 rfl p q).symm
  rcases List.mem_cons.mp hpc with rfl | hpc
  · obtain ⟨p, q, rfl⟩ : ∃ (p : Fin 256) (q : Fin 128), j = ix2 p q := ⟨j 0, j 1, eq_ix2 j⟩
    exact (piece7 x0 x1 x2 x3 p q).trans (blkOut_emb x0 x1 x2 x3 ![0, 896] inb_S256x1536_S256x128_0_896 7 rfl p q).symm
  rcases List.mem_cons.mp hpc with rfl | hpc
  · obtain ⟨p, q, rfl⟩ : ∃ (p : Fin 256) (q : Fin 128), j = ix2 p q := ⟨j 0, j 1, eq_ix2 j⟩
    exact (piece6 x0 x1 x2 x3 p q).trans (blkOut_emb x0 x1 x2 x3 ![0, 768] inb_S256x1536_S256x128_0_768 6 rfl p q).symm
  rcases List.mem_cons.mp hpc with rfl | hpc
  · obtain ⟨p, q, rfl⟩ : ∃ (p : Fin 256) (q : Fin 128), j = ix2 p q := ⟨j 0, j 1, eq_ix2 j⟩
    exact (piece5 x0 x1 x2 x3 p q).trans (blkOut_emb x0 x1 x2 x3 ![0, 640] inb_S256x1536_S256x128_0_640 5 rfl p q).symm
  rcases List.mem_cons.mp hpc with rfl | hpc
  · obtain ⟨p, q, rfl⟩ : ∃ (p : Fin 256) (q : Fin 128), j = ix2 p q := ⟨j 0, j 1, eq_ix2 j⟩
    exact (piece4 x0 x1 x2 x3 p q).trans (blkOut_emb x0 x1 x2 x3 ![0, 512] inb_S256x1536_S256x128_0_512 4 rfl p q).symm
  rcases List.mem_cons.mp hpc with rfl | hpc
  · obtain ⟨p, q, rfl⟩ : ∃ (p : Fin 256) (q : Fin 128), j = ix2 p q := ⟨j 0, j 1, eq_ix2 j⟩
    exact (piece3 x0 x1 x2 x3 p q).trans (blkOut_emb x0 x1 x2 x3 ![0, 384] inb_S256x1536_S256x128_0_384 3 rfl p q).symm
  rcases List.mem_cons.mp hpc with rfl | hpc
  · obtain ⟨p, q, rfl⟩ : ∃ (p : Fin 256) (q : Fin 128), j = ix2 p q := ⟨j 0, j 1, eq_ix2 j⟩
    exact (piece2 x0 x1 x2 x3 p q).trans (blkOut_emb x0 x1 x2 x3 ![0, 256] inb_S256x1536_S256x128_0_256 2 rfl p q).symm
  rcases List.mem_cons.mp hpc with rfl | hpc
  · obtain ⟨p, q, rfl⟩ : ∃ (p : Fin 256) (q : Fin 128), j = ix2 p q := ⟨j 0, j 1, eq_ix2 j⟩
    exact (piece1 x0 x1 x2 x3 p q).trans (blkOut_emb x0 x1 x2 x3 ![0, 128] inb_S256x1536_S256x128_0_128 1 rfl p q).symm
  rcases List.mem_cons.mp hpc with rfl | hpc
  · obtain ⟨p, q, rfl⟩ : ∃ (p : Fin 256) (q : Fin 128), j = ix2 p q := ⟨j 0, j 1, eq_ix2 j⟩
    exact (piece0 x0 x1 x2 x3 p q).trans (blkOut_emb x0 x1 x2 x3 ![0, 0] inb_S256x1536_S256x128_0_0 0 rfl p q).symm
  nomatch hpc

/-- The one store of a step into its second output block writes the softplus of the weights row. -/
theorem out0_5_eq (x0 : S1x36.Idx → EReal) (x1 : S128x128.Idx → EReal) (x2 : S1x128.Idx → EReal) (x3 : S256x4608.Idx → EReal) :
    out0_5 (F := Ideal) x0 x1 x2 x3 = fun y => Spec.softplus (x0 y) := by
  unfold out0_5
  rw [View.canon_unit_zero zeros2, ld_x0]
  funext y
  exact pay1_apply x0 y

end Cert.KernelIdeal.Bridge

end
-- ==== Proof.KArr.lean ====
/-
  From the steps' blocks to the two output arrays of the kernel call.

  Step `t` of 64 works on batch rows `256 t` to `256 t + 255`. The feature array the call sees is the features with
  edge and entry laid on one axis of 36 · 128 columns; the weights and the bias are seen as single rows. Each step's
  first output block is the matching 256 rows of the whole result (node and output entry side by side on one axis);
  the second output block is the row of softplus weights, written back once, after the last step.
-/
import proofs.«143436_g3865470566685_cont_8to1_b_833_3_alg».proof.Proof.KPay
import Idealize.ShloMosaic.Lib.Pipeline.Value

noncomputable section

namespace Cert.KernelIdeal.Bridge

open Cert.KernelIdeal Cert.KernelIdeal.Gen Idealize.ShloMosaic Idealize.ShloMosaic.ValueIdx Idealize.SL.Sem

variable (m : (ℓ : Loc nD τ sig) → Buf (Elt Ideal) ℓ)

/-! ## The arrays the call sees

Three of the call's input arrays are re-laid copies of the arguments: the features with edge and entry on one axis, the
weights and the bias as single rows. -/

/-- The feature array the call sees is the features re-laid to 16384 rows of 36 · 128 columns. -/
private theorem V_feat (c : Dev nD) : V m c main_v0
    = shapeCast S16384x4608 (m ((c.tc : Thread nD τ).loc main_arg0)) Facts₀.shapeCasts_S16384x36x128_S16384x4608 := by
  show StableHlo.after hostOps0 (fun b => m (c, b)) (Proc.devRef .tc main_v0) = _
  after_results
  rfl

/-- The weights the call sees are the weights as one row. -/
private theorem V_wts (c : Dev nD) : V m c main_v1
    = shapeCast S1x36 (m ((c.tc : Thread nD τ).loc main_arg1)) Facts₀.shapeCasts_S36_S1x36 := by
  show StableHlo.after hostOps0 (fun b => m (c, b)) (Proc.devRef .tc main_v1) = _
  after_results
  rfl

/-- The bias the call sees is the bias as one row. -/
private theorem V_bias (c : Dev nD) : V m c main_v2
    = shapeCast S1x128 (m ((c.tc : Thread nD τ).loc main_arg3)) Facts₀.shapeCasts_S128_S1x128 := by
  show StableHlo.after hostOps0 (fun b => m (c, b)) (Proc.devRef .tc main_v2) = _
  after_results
  rfl

/-- Row `b`, column `128 e + k` of the re-laid features is entry `k` of edge `e` in batch row `b`. -/
private theorem V_feat_at (c : Dev nD) (b : Fin 16384) (e : Fin 36) (k : Fin 128) :
    (V m c main_v0 : S16384x4608.Idx → EReal) (ix2 b (featCol e k))
      = (m ((c.tc : Thread nD τ).loc main_arg0) : S16384x36x128.Idx → EReal) (ix3 b e k) := by
  rw [V_feat]
  refine shapeCast_apply _ _ _ _ ?_
  show (S16384x36x128.rowMajor (ix3 b e k)).val = (S16384x4608.rowMajor (ix2 b (featCol e k))).val
  rw [Shape.rowMajor_val_three, Shape.rowMajor_val_two]
  show (b.val * 36 + e.val) * 128 + k.val = b.val * 4608 + (128 * e.val + k.val)
  omega

/-- Column `e` of the weights row is weight `e`. -/
private theorem V_wts_at (c : Dev nD) (u : Fin 1) (e : Fin 36) :
    (V m c main_v1 : S1x36.Idx → EReal) (ix2 u e) = (m ((c.tc : Thread nD τ).loc main_arg1) : S36.Idx → EReal) (ix1 e) := by
  rw [V_wts]
  refine shapeCast_apply _ _ _ _ ?_
  show (S36.rowMajor (ix1 e)).val = (S1x36.rowMajor (ix2 u e)).val
  rw [Shape.rowMajor_val_two, Shape.rowMajor_val_one]
  show e.val = u.val * 36 + e.val
  omega

/-- Column `o` of the bias row is bias entry `o`. -/
private theorem V_bias_at (c : Dev nD) (u : Fin 1) (o : Fin 128) :
    (V m c main_v2 : S1x128.Idx → EReal) (ix2 u o) = (m ((c.tc : Thread nD τ).loc main_arg3) : S128.Idx → EReal) (ix1 o) := by
  rw [V_bias]
  refine shapeCast_apply _ _ _ _ ?_
  show (S128.rowMajor (ix1 o)).val = (S1x128.rowMajor (ix2 u o)).val
  rw [Shape.rowMajor_val_two, Shape.rowMajor_val_one]
  show o.val = u.val * 128 + o.val
  omega

/-! ## The blocks of a step

The windows' index maps, decided over the 64 steps: the feature window and the first output window sit at block `t` of
their first axis at step `t`; every other block index is zero. -/

private theorem idx_facts : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0
    ∧ win0_5.index t (0 : Fin 2) = 0 ∧ win0_5.index t (1 : Fin 2) = 0 :=
  (by decide +kernel : ∀ t : Fin grid0.N, _)

/-- The weights row a step loads. -/
private abbrev wtsBlk (c : Dev nD) (t : Fin cfg0.N) : S1x36.Idx → EReal := iblk m c 0 t
/-- The matrix a step loads. -/
private abbrev matBlk (c : Dev nD) (t : Fin cfg0.N) : S128x128.Idx → EReal := iblk m c 1 t
/-- The bias row a step loads. -/
private abbrev biasBlk (c : Dev nD) (t : Fin cfg0.N) : S1x128.Idx → EReal := iblk m c 2 t
/-- The 256 feature rows a step loads. -/
private abbrev featBlk (c : Dev nD) (t : Fin cfg0.N) : S256x4608.Idx → EReal := iblk m c 3 t

/-- Every step's weights row is the whole weights row. -/
private theorem wtsBlk_at (c : Dev nD) (t : Fin cfg0.N) (u : Fin 1) (e : Fin 36) :
    wtsBlk m c t (ix2 u e) = (m ((c.tc : Thread nD τ).loc main_arg1) : S36.Idx → EReal) (ix1 e) := by
  obtain ⟨h0, h1, -⟩ := idx_facts t
  refine Eq.trans ?_ (V_wts_at m c u e)
  unfold wtsBlk iblk
  rw [View.read_apply]
  show V m c main_v1 _ = V m c main_v1 _
  congr 1
  funext a
  apply Fin.ext
  match a with
  | ⟨0, _⟩ => show win0_0.index t (0 : Fin 2) * 1 + 1 * u.val = u.val; omega
  | ⟨1, _⟩ => show win0_0.index t (1 : Fin 2) * 36 + 1 * e.val = e.val; omega

/-- Every step's matrix is the whole matrix. -/
private theorem matBlk_at (c : Dev nD) (t : Fin cfg0.N) (o k : Fin 128) :
    matBlk m c t (ix2 o k) = (m ((c.tc : Thread nD τ).loc main_arg2) : S128x128.Idx → EReal) (ix2 o k) := by
  obtain ⟨-, -, h0, h1, -⟩ := idx_facts t
  refine Eq.trans ?_ (congrFun (V_main_arg2 m c) (ix2 o k))
  unfold matBlk iblk
  rw [View.read_apply]
  show V m c main_arg2 _ = V m c main_arg2 _
  congr 1
  funext a
  apply Fin.ext
  match a with
  | ⟨0, _⟩ => show win0_1.index t (0 : Fin 2) * 128 + 1 * o.val = o.val; omega
  | ⟨1, _⟩ => show win0_1.index t (1 : Fin 2) * 128 + 1 * k.val = k.val; omega

/-- Every step's bias row is the whole bias row. -/
private theorem biasBlk_at (c : Dev nD) (t : Fin cfg0.N) (u : Fin 1) (o : Fin 128) :
    biasBlk m c t (ix2 u o) = (m ((c.tc : Thread nD τ).loc main_arg3) : S128.Idx → EReal) (ix1 o) := by
  obtain ⟨-, -, -, -, h0, h1, -⟩ := idx_facts t
  refine Eq.trans ?_ (V_bias_at m c u o)
  unfold biasBlk iblk
  rw [View.read_apply]
  show V m c main_v2 _ = V m c main_v2 _
  congr 1
  funext a
  apply Fin.ext
  match a with
  | ⟨0, _⟩ => show win0_2.index t (0 : Fin 2) * 1 + 1 * u.val = u.val; omega
  | ⟨1, _⟩ => show win0_2.index t (1 : Fin 2) * 128 + 1 * o.val = o.val; omega

/-- Row `p` of step `t`'s feature block is batch row `256 t + p`. -/
private theorem featBlk_at (c : Dev nD) (t : Fin cfg0.N) (p : Fin 256) (e : Fin 36) (k : Fin 128) (b : Fin 16384)
    (hb : b.val = 256 * t.val + p.val) :
    featBlk m c t (ix2 p (featCol e k)) = (m ((c.tc : Thread nD τ).loc main_arg0) : S16384x36x128.Idx → EReal) (ix3 b e k) := by
  obtain ⟨-, -, -, -, -, -, h0, h1, -⟩ := idx_facts t
  refine Eq.trans ?_ (V_feat_at m c b e k)
  unfold featBlk iblk
  rw [View.read_apply]
  show V m c main_v0 _ = V m c main_v0 _
  congr 1
  funext a
  apply Fin.ext
  match a with
  | ⟨0, _⟩ => show win0_3.index t (0 : Fin 2) * 256 + 1 * p.val = b.val; omega
  | ⟨1, _⟩ => show win0_3.index t (1 : Fin 2) * 4608 + 1 * (featCol e k).val = (featCol e k).val; omega

/-! ## A step's first output block against the whole result -/

/-- Row `p` of step `t`'s output block, at node `n` and output entry `o`, is the result at batch row `256 t + p`:
    the step's blocks read the same arguments, term by term. -/
private theorem blkAt_eq (c : Dev nD) (t : Fin cfg0.N) (p : Fin 256) (n : Fin 12) (o : Fin 128) (b : Fin 16384)
    (hb : b.val = 256 * t.val + p.val) :
    blkAt (wtsBlk m c t) (matBlk m c t) (biasBlk m c t) (featBlk m c t) p n o
      = Spec.nodesAt (m ((c.tc : Thread nD τ).loc main_arg0)) (m ((c.tc : Thread nD τ).loc main_arg1))
          (m ((c.tc : Thread nD τ).loc main_arg2)) (m ((c.tc : Thread nD τ).loc main_arg3)) b n o := by
  have hfeat : ∀ (e : Fin 36) (k : Fin 128), blkFeat (wtsBlk m c t) (featBlk m c t) p e k
      = Spec.wfeat (m ((c.tc : Thread nD τ).loc main_arg0)) (m ((c.tc : Thread nD τ).loc main_arg1)) b e k := by
    intro e k
    unfold blkFeat Spec.wfeat
    rw [featBlk_at m c t p e k b hb, wtsBlk_at m c t 0 e]
  have hnode : ∀ k : Fin 128, blkNode (wtsBlk m c t) (featBlk m c t) p n k
      = Spec.nodeFeat (m ((c.tc : Thread nD τ).loc main_arg0)) (m ((c.tc : Thread nD τ).loc main_arg1)) b n k := by
    intro k
    unfold blkNode Spec.nodeFeat
    simp only [hfeat]
  unfold blkAt Spec.nodesAt
  simp only [hnode, matBlk_at m c t, biasBlk_at m c t 0 o]

/-- The same for the block and the result laid with node and output entry on one axis. -/
private theorem blkOut_eq (c : Dev nD) (t : Fin cfg0.N) (j : S256x1536.Idx) (i : S16384x1536.Idx)
    (h0 : (i 0).val = 256 * t.val + (j 0).val) (h1 : (i 1).val = (j 1).val) :
    blkOut (wtsBlk m c t) (matBlk m c t) (biasBlk m c t) (featBlk m c t) j
      = Spec.nodesFlat (m ((c.tc : Thread nD τ).loc main_arg0)) (m ((c.tc : Thread nD τ).loc main_arg1))
          (m ((c.tc : Thread nD τ).loc main_arg2)) (m ((c.tc : Thread nD τ).loc main_arg3)) i := by
  obtain ⟨p, q, rfl⟩ : ∃ (p : Fin 256) (q : Fin 1536), j = ix2 p q := ⟨j 0, j 1, eq_ix2 j⟩
  obtain ⟨b, q', rfl⟩ : ∃ (b : Fin 16384) (q' : Fin 1536), i = ix2 b q' := ⟨i 0, i 1, eq_ix2 i⟩
  obtain rfl : q' = q := Fin.ext h1
  exact blkAt_eq m c t p _ _ b h0

/-- What step `t` writes back to the first output array is its block of the result. -/
private theorem flushed4_eq (c : Dev nD) (t : Fin cfg0.N) :
    (dats m 0 c).flushed 4 t = ((cfg0.win 4).blk t).view.read (Elt Ideal)
      (Spec.nodesFlat (m ((c.tc : Thread nD τ).loc main_arg0)) (m ((c.tc : Thread nD τ).loc main_arg1))
          (m ((c.tc : Thread nD τ).loc main_arg2)) (m ((c.tc : Thread nD τ).loc main_arg3))) := by
  obtain ⟨-, -, -, -, -, -, -, -, h0, h1, -⟩ := idx_facts t
  show (cfg0.win 4).cut (grid0.coords t) ((dats m 0 c).after 4 t) = _
  rw [after0_4]
  refine Eq.trans (congrArg ((cfg0.win 4).cut (grid0.coords t)) (out0_4_eq (wtsBlk m c t) (matBlk m c t) (biasBlk m c t) (featBlk m c t))) ?_
  funext j
  refine blkOut_eq m c t j (((cfg0.win 4).blk t).view.emb j) ?_ ?_
  · show win0_4.index t (0 : Fin 2) * 256 + 1 * (j 0).val = 256 * t.val + (j 0).val
    omega
  · show win0_4.index t (1 : Fin 2) * 1536 + 1 * (j 1).val = (j 1).val
    omega

/-- An index of the first output array is in step `t`'s block iff each coordinate is in the block's range. -/
private theorem mem_blk4 (t : Fin cfg0.N) (i : S16384x1536.Idx) :
    i ∈ ((cfg0.win 4).blk t).view.set ↔ ∀ a : Fin 2, win0_4.index t a * S256x1536.size a ≤ (i a).val
      ∧ (i a).val < win0_4.index t a * S256x1536.size a + S256x1536.size a := by
  show i ∈ ((View.whole main_v3_0).slice (win0_4.rect t)).set ↔ _
  rw [View.set_slice_whole, Rect.mem_set_unit]
  exact Iff.rfl

/-- Row `r` of the first output array is in the block of step `r / 256`. -/
private theorem cover4 (i : S16384x1536.Idx) :
    ∃ t : Fin cfg0.N, (cfg0.win 4).flush t = true ∧ i ∈ ((cfg0.win 4).blk t).view.set := by
  have hi0 : (i 0).val < 16384 := idx2_lt0 i
  have hi1 : (i 1).val < 1536 := idx2_lt1 i
  have hN : cfg0.N = 64 := N_0
  have ht : (i 0).val / 256 < cfg0.N := by rw [hN]; omega
  obtain ⟨-, -, -, -, -, -, -, -, h0, h1, -⟩ := idx_facts ⟨(i 0).val / 256, ht⟩
  refine ⟨⟨(i 0).val / 256, ht⟩, flush0_4 _, ?_⟩
  rw [mem_blk4]
  intro a
  match a with
  | ⟨0, _⟩ =>
    show win0_4.index ⟨(i 0).val / 256, ht⟩ (0 : Fin 2) * 256 ≤ (i 0).val
      ∧ (i 0).val < win0_4.index ⟨(i 0).val / 256, ht⟩ (0 : Fin 2) * 256 + 256
    rw [h0]
    show (i 0).val / 256 * 256 ≤ (i 0).val ∧ (i 0).val < (i 0).val / 256 * 256 + 256
    omega
  | ⟨1, _⟩ =>
    show win0_4.index ⟨(i 0).val / 256, ht⟩ (1 : Fin 2) * 1536 ≤ (i 1).val
      ∧ (i 1).val < win0_4.index ⟨(i 0).val / 256, ht⟩ (1 : Fin 2) * 1536 + 1536
    omega

/-- After the call the first output array holds the result with node and output entry on one axis. -/
theorem final4 (c : Dev nD) :
    (dats m 0 c).arrAt 4 cfg0.N
      = Spec.nodesFlat (m ((c.tc : Thread nD τ).loc main_arg0)) (m ((c.tc : Thread nD τ).loc main_arg1))
          (m ((c.tc : Thread nD τ).loc main_arg2)) (m ((c.tc : Thread nD τ).loc main_arg3)) :=
  (dats m 0 c).arrAt_eq_of_cover 4 _ (fun t _ => flushed4_eq m c t) cover4

/-! ## The second output array -/

/-- What a step writes back to the second output array is the row of softplus weights. -/
private theorem flushed5_eq (c : Dev nD) (t : Fin cfg0.N) :
    (dats m 0 c).flushed 5 t = ((cfg0.win 5).blk t).view.read (Elt Ideal)
      (Spec.wtsRow (m ((c.tc : Thread nD τ).loc main_arg1))) := by
  obtain ⟨-, -, -, -, -, -, -, -, -, -, h0, h1⟩ := idx_facts t
  show (cfg0.win 5).cut (grid0.coords t) ((dats m 0 c).after 5 t) = _
  rw [after0_5]
  refine Eq.trans (congrArg ((cfg0.win 5).cut (grid0.coords t)) (out0_5_eq (wtsBlk m c t) (matBlk m c t) (biasBlk m c t) (featBlk m c t))) ?_
  funext j
  obtain ⟨u, e, rfl⟩ : ∃ (u : Fin 1) (e : Fin 36), (j : S1x36.Idx) = ix2 u e := ⟨j 0, j 1, eq_ix2 j⟩
  show Spec.softplus (wtsBlk m c t (ix2 u e))
    = Spec.softplus ((m ((c.tc : Thread nD τ).loc main_arg1) : S36.Idx → EReal) (ix1 ((((cfg0.win 5).blk t).view.emb (ix2 u e)) 1)))
  rw [wtsBlk_at m c t u e]
  refine congrArg (fun x : Fin 36 => Spec.softplus ((m ((c.tc : Thread nD τ).loc main_arg1) : S36.Idx → EReal) (ix1 x))) (Fin.ext ?_)
  show e.val = win0_5.index t (1 : Fin 2) * 36 + 1 * e.val
  omega

/-- Every index of the second output array is in the last step's block. -/
private theorem cover5 (i : S1x36.Idx) :
    ∃ t : Fin cfg0.N, (cfg0.win 5).flush t = true ∧ i ∈ ((cfg0.win 5).blk t).view.set := by
  have hi0 : (i 0).val < 1 := idx2_lt0 i
  have hi1 : (i 1).val < 36 := idx2_lt1 i
  have hN : cfg0.N = 64 := N_0
  have ht : 63 < cfg0.N := by rw [hN]; omega
  obtain ⟨-, -, -, -, -, -, -, -, -, -, h0, h1⟩ := idx_facts ⟨63, ht⟩
  refine ⟨⟨63, ht⟩, (flush0_5 _).mpr rfl, ?_⟩
  show i ∈ ((View.whole main_v3_1).slice (win0_5.rect ⟨63, ht⟩)).set
  rw [View.set_slice_whole, Rect.mem_set_unit]
  intro a
  match a with
  | ⟨0, _⟩ =>
    show win0_5.index ⟨63, ht⟩ (0 : Fin 2) * 1 ≤ (i 0).val ∧ (i 0).val < win0_5.index ⟨63, ht⟩ (0 : Fin 2) * 1 + 1
    omega
  | ⟨1, _⟩ =>
    show win0_5.index ⟨63, ht⟩ (1 : Fin 2) * 36 ≤ (i 1).val ∧ (i 1).val < win0_5.index ⟨63, ht⟩ (1 : Fin 2) * 36 + 36
    omega

/-- After the call the second output array holds the row of softplus weights. -/
theorem final5 (c : Dev nD) :
    (dats m 0 c).arrAt 5 cfg0.N = Spec.wtsRow (m ((c.tc : Thread nD τ).loc main_arg1)) :=
  (dats m 0 c).arrAt_eq_of_cover 5 _ (fun t _ => flushed5_eq m c t) cover5

end Cert.KernelIdeal.Bridge

end
-- ==== Proof.KRun.lean ====
/-
  The kernel program's run, read: after the call the two output arrays are re-laid (the first to batch row × node ×
  output entry, the second to a plain vector of 36) and hold the specification's two results; the arguments are
  unchanged.
-/
import proofs.«143436_g3865470566685_cont_8to1_b_833_3_alg».proof.Proof.KArr

noncomputable section

namespace Cert.KernelIdeal.Bridge

open Cert.KernelIdeal Cert.KernelIdeal.Gen Idealize.ShloMosaic Idealize.ShloMosaic.ValueIdx Idealize.SL.Sem

/-- Re-laying the flat result (node and output entry on one axis of 12 · 128 columns) on three axes gives the
    specification's first result: column `128 n + o` is node `n`, output entry `o`. -/
theorem relay_nodes (x : S16384x36x128.Idx → EReal) (ew : S36.Idx → EReal) (W : S128x128.Idx → EReal) (b : S128.Idx → EReal)
    (h : S16384x1536.ShapeCasts S16384x12x128) (i : S16384x12x128.Idx) :
    shapeCast S16384x12x128 (Spec.nodesFlat x ew W b) h i = Spec.nodes x ew W b i := by
  have h1 : (i 1).val < 12 := (i 1).isLt
  have h2 : (i 2).val < 128 := (i 2).isLt
  rw [shapeCast_apply (Spec.nodesFlat x ew W b) h i
    (ix2 (n0 := 16384) (n1 := 1536) (i 0) ⟨128 * (i 1).val + (i 2).val, by omega⟩)
    (by rw [Shape.rowMajor_val_two, Shape.rowMajor_val_three]
        show (i 0).val * 1536 + (128 * (i 1).val + (i 2).val) = ((i 0).val * 12 + (i 1).val) * 128 + (i 2).val
        omega)]
  show Spec.nodesAt x ew W b _ _ _ = Spec.nodesAt x ew W b _ _ _
  congr 1
  · exact Fin.ext (show (128 * (i 1).val + (i 2).val) / 128 = (i 1).val by omega)
  · exact Fin.ext (show (128 * (i 1).val + (i 2).val) % 128 = (i 2).val by omega)

/-- Re-laying the single row of weights as a plain vector gives the specification's second result. -/
theorem relay_wts (ew : S36.Idx → EReal) (h : S1x36.ShapeCasts S36) (i : S36.Idx) :
    shapeCast S36 (Spec.wtsRow ew) h i = Spec.wts ew i := by
  rw [shapeCast_apply (Spec.wtsRow ew) h i (ix2 (n0 := 1) (n1 := 36) 0 (i 0))
    (by rw [Shape.rowMajor_val_two, Shape.rowMajor_val_one]
        show 0 * 36 + (i 0).val = (i 0).val
        omega)]
  exact congrArg (fun j => Spec.softplus (ew j)) (eq_ix1 i).symm

variable (m : (ℓ : Loc nD τ sig) → Buf (Elt Ideal) ℓ) (ρ : Dev nD → PrngReg)

/-- The first result buffer after the lines that follow the call. -/
theorem tail_v4 (c : Dev nD) :
    Pipeline.afterTail₀ cfgs (dats m) 0 (V0 m) [hostOps1] c main_v4
      = Spec.nodes (m ((c.tc : Thread nD τ).loc main_arg0)) (m ((c.tc : Thread nD τ).loc main_arg1))
          (m ((c.tc : Thread nD τ).loc main_arg2)) (m ((c.tc : Thread nD τ).loc main_arg3)) := by
  unfold Pipeline.afterTail₀
  show StableHlo.after hostOps1 _ (Proc.devRef .tc main_v4) = _
  after_results
  have e : Pipeline.withArrays (cfgs 0).spec c (V0 m c) (fun w => (dats m 0 c).arrAt w (cfgs 0).N) (Proc.devRef .tc main_v3_0)
      = Spec.nodesFlat (m ((c.tc : Thread nD τ).loc main_arg0)) (m ((c.tc : Thread nD τ).loc main_arg1))
          (m ((c.tc : Thread nD τ).loc main_arg2)) (m ((c.tc : Thread nD τ).loc main_arg3)) :=
    (Pipeline.withArrays_arr spec0 launch0.win.arr_inj c _ _ 4).trans (final4 m c)
  funext i
  show shapeCast S16384x12x128 (Pipeline.withArrays (cfgs 0).spec c (V0 m c) (fun w => (dats m 0 c).arrAt w (cfgs 0).N) (Proc.devRef .tc main_v3_0)) _ i = _
  rw [e]
  exact relay_nodes _ _ _ _ _ i

/-- The second result buffer after the lines that follow the call. -/
theorem tail_v5 (c : Dev nD) :
    Pipeline.afterTail₀ cfgs (dats m) 0 (V0 m) [hostOps1] c main_v5 = Spec.wts (m ((c.tc : Thread nD τ).loc main_arg1)) := by
  unfold Pipeline.afterTail₀
  show StableHlo.after hostOps1 _ (Proc.devRef .tc main_v5) = _
  after_results
  have e : Pipeline.withArrays (cfgs 0).spec c (V0 m c) (fun w => (dats m 0 c).arrAt w (cfgs 0).N) (Proc.devRef .tc main_v3_1)
      = Spec.wtsRow (m ((c.tc : Thread nD τ).loc main_arg1)) :=
    (Pipeline.withArrays_arr spec0 launch0.win.arr_inj c _ _ 5).trans (final5 m c)
  funext i
  show shapeCast S36 (Pipeline.withArrays (cfgs 0).spec c (V0 m c) (fun w => (dats m 0 c).arrAt w (cfgs 0).N) (Proc.devRef .tc main_v3_1)) _ i = _
  rw [e]
  exact relay_wts _ _ i

/-- Every weakly fair execution of the kernel program ends with the two results at the specification's values and the
    four arguments as launched: the generated frame run, its post read at the two result buffers (which the lines after
    the call write) and at the arguments. -/
theorem run : θ_run defs (onTc (τ := τ) (main (F := Ideal))) ⟨m, fun _ => 0, ρ⟩ fun r => ∀ c : Dev nD,
      r.2.mem ((c.tc : Thread nD τ).loc main_v4)
        = Spec.nodes (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_v5) = Spec.wts (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v4 (Pipeline.mem_restRefs_of main_v4 (by decide) (by decide))).trans (tail_v4 m c),
     ((h c).2 main_v5 (Pipeline.mem_restRefs_of main_v5 (by decide) (by decide))).trans (tail_v5 m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).1 1).trans (((dats m 0 c).arrAt_in 1 rfl _).trans ((A_eq m c 1).trans (V_main_arg2 m c))),
     ((h c).2 main_arg3 (Pipeline.mem_restRefs_of main_arg3 (by decide) (by decide))).trans (W_main_arg3 m (dats m) c)⟩)
    (run_main m ρ)

end Cert.KernelIdeal.Bridge

end
-- ==== Proof.RTerm.lean ====
/-
  The reference program's two results as terms of its four arguments: the operations of its `main`, composed in
  program order. The softplus weights come first (the larger of the weight and zero, plus `log1p (exp (-|w|))`,
  behind a test that never fires on the extended reals); they are laid along the edge axis and multiplied into the
  features; the products are scatter-added onto a zero array once by the edges' source nodes and once by their
  destination nodes; the result is contracted with the matrix, the bias is added, and the maximum with zero is taken.
-/
import proofs.«143436_g3865470566685_cont_8to1_b_833_3_alg».proof.ReferenceIdeal

noncomputable section

namespace Cert.ReferenceIdeal.Hand

open Cert.ReferenceIdeal Idealize.ShloMosaic

variable {F : FTy → Type} [FloatOps F] [Facts]
open Facts₀ Facts

/-- The zero row the softplus call broadcasts. -/
def zero36 : (⟨S36, .f32⟩ : BufTy).Contents (Elt F) := broadcastInDim S36 ![] bcast_S_S36 (constant S_ .f32 0x00000000#32)

/-- The softplus call's result. -/
def refWts (ew : (⟨S36, .f32⟩ : BufTy).Contents (Elt F)) : (⟨S36, .f32⟩ : BufTy).Contents (Elt F) :=
  select (cmpf .une (subf ew zero36) (subf ew zero36)) (addf ew zero36)
    (addf (maximumf ew zero36) (Host.log1p (Host.exp (Host.negf (Host.absf (subf ew zero36))))))

/-- The source-node table as the scatter reads it: negative entries wrapped by 12 (there are none), one column. -/
def srcIdx : IVec S36x1 32 :=
  broadcastInDim S36x1 ![0] bcast_S36_S36x1_0
    (select (cmpi .slt (fun i => lit0 (S36.rowMajor i)) (broadcastInDim S36 ![] bcast_S_S36 (constantI S_ 32 0#32)))
      (addi (fun i => lit0 (S36.rowMajor i)) (broadcastInDim S36 ![] bcast_S_S36 (constantI S_ 32 12#32)))
      (fun i => lit0 (S36.rowMajor i)))

/-- The destination-node table, likewise. -/
def dstIdx : IVec S36x1 32 :=
  broadcastInDim S36x1 ![0] bcast_S36_S36x1_0
    (select (cmpi .slt (fun i => lit1 (S36.rowMajor i)) (broadcastInDim S36 ![] bcast_S_S36 (constantI S_ 32 0#32)))
      (addi (fun i => lit1 (S36.rowMajor i)) (broadcastInDim S36 ![] bcast_S_S36 (constantI S_ 32 12#32)))
      (fun i => lit1 (S36.rowMajor i)))

/-- The features scaled by their edges' weights. -/
def refScaled (x : (⟨S16384x36x128, .f32⟩ : BufTy).Contents (Elt F)) (ew : (⟨S36, .f32⟩ : BufTy).Contents (Elt F)) :
    (⟨S16384x36x128, .f32⟩ : BufTy).Contents (Elt F) :=
  mulf x (broadcastInDim S16384x36x128 ![0, 1, 2] bcast_S1x36x1_S16384x36x128_0_1_2
    (fun i => shapeCast S1x36x1 (refWts ew) shapeCasts_S36_S1x36x1 i))

/-- The nodes' accumulated features: two scatter-adds of the scaled features onto zero. -/
def refAcc (x : (⟨S16384x36x128, .f32⟩ : BufTy).Contents (Elt F)) (ew : (⟨S36, .f32⟩ : BufTy).Contents (Elt F)) :
    (⟨S16384x12x128, .f32⟩ : BufTy).Contents (Elt F) :=
  Host.scatterAdd scatter_S16384x12x128_S36x1_S16384x36x128_02_1_1_1
    (Host.scatterAdd scatter_S16384x12x128_S36x1_S16384x36x128_02_1_1_1
      (broadcastInDim S16384x12x128 ![] bcast_S_S16384x12x128 (constant S_ .f32 0x00000000#32)) srcIdx (refScaled x ew))
    dstIdx (refScaled x ew)

/-- The first result. -/
def refNodes (x : (⟨S16384x36x128, .f32⟩ : BufTy).Contents (Elt F)) (ew : (⟨S36, .f32⟩ : BufTy).Contents (Elt F))
    (W : (⟨S128x128, .f32⟩ : BufTy).Contents (Elt F)) (b : (⟨S128, .f32⟩ : BufTy).Contents (Elt F)) :
    (⟨S16384x12x128, .f32⟩ : BufTy).Contents (Elt F) :=
  maximumf
    (addf (Host.dotGeneral dot_S16384x12x128_S128x128_S16384x12x128_2_1_01_0_n_n none (refAcc x ew) W)
      (broadcastInDim S16384x12x128 ![0, 1, 2] bcast_S1x1x128_S16384x12x128_0_1_2
        (broadcastInDim S1x1x128 ![2] bcast_S128_S1x1x128_2 b)))
    (broadcastInDim S16384x12x128 ![] bcast_S_S16384x12x128 (constant S_ .f32 0x00000000#32))

end Cert.ReferenceIdeal.Hand

end
-- ==== Proof.RRun.lean ====
/-
  The reference program's run, read: its `main` is a straight line of host operations (the two functions it calls
  inlined where they are called), so every weakly fair execution ends with each buffer at the operations' composed
  term of the arguments.
-/
import proofs.«143436_g3865470566685_cont_8to1_b_833_3_alg».proof.Proof.RTerm
import proofs.«143436_g3865470566685_cont_8to1_b_833_3_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The operations of `main` in program order, the two calls unfolded: the two index tables, the fourteen operations of
    the softplus over the call's buffers, the twenty-seven of `main`'s own, the three of the final maximum with zero. -/
abbrev ops : List (HloOp τ sig (Elt F)) :=
  [ nullary main_c (fun i => lit0 (S36.rowMajor i)),
    nullary main_c_0 (fun i => lit1 (S36.rowMajor i)),
    TRef.nullary main_call0.cst (constant S_ .f32 0x00000000#32),
    TRef.unary main_call0.cst main_call0.v0 (broadcastInDim S36 ![] bcast_S_S36),
    TRef.binary (.of main_arg1) main_call0.v0 main_call0.v1 maximumf,
    TRef.unary main_call0.cst main_call0.v2 (broadcastInDim S36 ![] bcast_S_S36),
    TRef.binary (.of main_arg1) main_call0.v2 main_call0.v3 subf,
    TRef.binary main_call0.v3 main_call0.v3 main_call0.v4 (cmpf .une),
    TRef.unary main_call0.cst main_call0.v5 (broadcastInDim S36 ![] bcast_S_S36),
    TRef.binary (.of main_arg1) main_call0.v5 main_call0.v6 addf,
    TRef.unary main_call0.v3 main_call0.v7 Host.absf,
    TRef.unary main_call0.v7 main_call0.v8 Host.negf,
    TRef.unary main_call0.v8 main_call0.v9 Host.exp,
    TRef.unary main_call0.v9 main_call0.v10 Host.log1p,
    TRef.binary main_call0.v1 main_call0.v10 main_call0.v11 addf,
    TRef.ternary main_call0.v4 main_call0.v6 main_call0.v11 main_call0.v12 select,
    reshape main_v0 main_v1 rfl shapeCasts_S36_S1x36x1,
    unary main_v1 main_v2 (broadcastInDim S16384x36x128 ![0, 1, 2] bcast_S1x36x1_S16384x36x128_0_1_2 : (⟨S1x36x1, .f32⟩ : BufTy).Contents (Elt F) → (⟨S16384x36x128, .f32⟩ : BufTy).Contents (Elt F)),
    binary main_arg0 main_v2 main_v3 (mulf : (⟨S16384x36x128, .f32⟩ : BufTy).Contents (Elt F) → (⟨S16384x36x128, .f32⟩ : BufTy).Contents (Elt F) → (⟨S16384x36x128, .f32⟩ : BufTy).Contents (Elt F)),
    nullary main_cst (constant S_ .f32 0x00000000#32),
    unary main_cst main_v4 (broadcastInDim S16384x12x128 ![] bcast_S_S16384x12x128 : (⟨S_, .f32⟩ : BufTy).Contents (Elt F) → (⟨S16384x12x128, .f32⟩ : BufTy).Contents (Elt F)),
    nullary main_c_1 (constantI S_ 32 0#32),
    unary main_c_1 main_v5 (broadcastInDim S36 ![] bcast_S_S36 : (⟨S_, .i32⟩ : BufTy).Contents (Elt F) → (⟨S36, .i32⟩ : BufTy).Contents (Elt F)),
    binary main_c main_v5 main_v6 (cmpi .slt : (⟨S36, .i32⟩ : BufTy).Contents (Elt F) → (⟨S36, .i32⟩ : BufTy).Contents (Elt F) → (⟨S36, .i1⟩ : BufTy).Contents (Elt F)),
    nullary main_c_2 (constantI S_ 32 12#32),
    unary main_c_2 main_v7 (broadcastInDim S36 ![] bcast_S_S36 : (⟨S_, .i32⟩ : BufTy).Contents (Elt F) → (⟨S36, .i32⟩ : BufTy).Contents (Elt F)),
    binary main_c main_v7 main_v8 (addi : (⟨S36, .i32⟩ : BufTy).Contents (Elt F) → (⟨S36, .i32⟩ : BufTy).Contents (Elt F) → (⟨S36, .i32⟩ : BufTy).Contents (Elt F)),
    ternary main_v6 main_v8 main_c main_v9 (select : (⟨S36, .i1⟩ : BufTy).Contents (Elt F) → (⟨S36, .i32⟩ : BufTy).Contents (Elt F) → (⟨S36, .i32⟩ : BufTy).Contents (Elt F) → (⟨S36, .i32⟩ : BufTy).Contents (Elt F)),
    unary main_v9 main_v10 (broadcastInDim S36x1 ![0] bcast_S36_S36x1_0 : (⟨S36, .i32⟩ : BufTy).Contents (Elt F) → (⟨S36x1, .i32⟩ : BufTy).Contents (Elt F)),
    ternary main_v4 main_v10 main_v3 main_v11 ((fun x i u => Host.scatterAdd scatter_S16384x12x128_S36x1_S16384x36x128_02_1_1_1 x i u) : (⟨S16384x12x128, .f32⟩ : BufTy).Contents (Elt F) → (⟨S36x1, .i32⟩ : BufTy).Contents (Elt F) → (⟨S16384x36x128, .f32⟩ : BufTy).Contents (Elt F) → (⟨S16384x12x128, .f32⟩ : BufTy).Contents (Elt F)),
    nullary main_c_3 (constantI S_ 32 0#32),
    unary main_c_3 main_v12 (broadcastInDim S36 ![] bcast_S_S36 : (⟨S_, .i32⟩ : BufTy).Contents (Elt F) → (⟨S36, .i32⟩ : BufTy).Contents (Elt F)),
    binary main_c_0 main_v12 main_v13 (cmpi .slt : (⟨S36, .i32⟩ : BufTy).Contents (Elt F) → (⟨S36, .i32⟩ : BufTy).Contents (Elt F) → (⟨S36, .i1⟩ : BufTy).Contents (Elt F)),
    nullary main_c_4 (constantI S_ 32 12#32),
    unary main_c_4 main_v14 (broadcastInDim S36 ![] bcast_S_S36 : (⟨S_, .i32⟩ : BufTy).Contents (Elt F) → (⟨S36, .i32⟩ : BufTy).Contents (Elt F)),
    binary main_c_0 main_v14 main_v15 (addi : (⟨S36, .i32⟩ : BufTy).Contents (Elt F) → (⟨S36, .i32⟩ : BufTy).Contents (Elt F) → (⟨S36, .i32⟩ : BufTy).Contents (Elt F)),
    ternary main_v13 main_v15 main_c_0 main_v16 (select : (⟨S36, .i1⟩ : BufTy).Contents (Elt F) → (⟨S36, .i32⟩ : BufTy).Contents (Elt F) → (⟨S36, .i32⟩ : BufTy).Contents (Elt F) → (⟨S36, .i32⟩ : BufTy).Contents (Elt F)),
    unary main_v16 main_v17 (broadcastInDim S36x1 ![0] bcast_S36_S36x1_0 : (⟨S36, .i32⟩ : BufTy).Contents (Elt F) → (⟨S36x1, .i32⟩ : BufTy).Contents (Elt F)),
    ternary main_v11 main_v17 main_v3 main_v18 ((fun x i u => Host.scatterAdd scatter_S16384x12x128_S36x1_S16384x36x128_02_1_1_1 x i u) : (⟨S16384x12x128, .f32⟩ : BufTy).Contents (Elt F) → (⟨S36x1, .i32⟩ : BufTy).Contents (Elt F) → (⟨S16384x36x128, .f32⟩ : BufTy).Contents (Elt F) → (⟨S16384x12x128, .f32⟩ : BufTy).Contents (Elt F)),
    binary main_v18 main_arg2 main_v19 ((fun l r => Host.dotGeneral dot_S16384x12x128_S128x128_S16384x12x128_2_1_01_0_n_n none l r) : (⟨S16384x12x128, .f32⟩ : BufTy).Contents (Elt F) → (⟨S128x128, .f32⟩ : BufTy).Contents (Elt F) → (⟨S16384x12x128, .f32⟩ : BufTy).Contents (Elt F)),
    unary main_arg3 main_v20 (broadcastInDim S1x1x128 ![2] bcast_S128_S1x1x128_2 : (⟨S128, .f32⟩ : BufTy).Contents (Elt F) → (⟨S1x1x128, .f32⟩ : BufTy).Contents (Elt F)),
    unary main_v20 main_v21 (broadcastInDim S16384x12x128 ![0, 1, 2] bcast_S1x1x128_S16384x12x128_0_1_2 : (⟨S1x1x128, .f32⟩ : BufTy).Contents (Elt F) → (⟨S16384x12x128, .f32⟩ : BufTy).Contents (Elt F)),
    binary main_v19 main_v21 main_v22 (addf : (⟨S16384x12x128, .f32⟩ : BufTy).Contents (Elt F) → (⟨S16384x12x128, .f32⟩ : BufTy).Contents (Elt F) → (⟨S16384x12x128, .f32⟩ : BufTy).Contents (Elt F)),
    TRef.nullary main_call1.cst (constant S_ .f32 0x00000000#32),
    TRef.unary main_call1.cst main_call1.v0 (broadcastInDim S16384x12x128 ![] bcast_S_S16384x12x128),
    TRef.binary (.of main_v22) main_call1.v0 main_call1.v1 maximumf ]

set_option maxRecDepth 1024 in
/-- `main` is that straight line: the two functions' definitions unfolded at their calls, both sides are one chain of
    steps once sequencing is reassociated. -/
theorem main_eq (c : Dev nD) : main (F := F) c = seq ops := by
  simp only [main, fn_softplus.body, fn_relu.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., nullary_bufs_sub .., nullary_bufs_sub .., unary_bufs_sub .., binary_bufs_sub .., unary_bufs_sub ..,
    binary_bufs_sub .., binary_bufs_sub .., unary_bufs_sub .., binary_bufs_sub .., unary_bufs_sub .., unary_bufs_sub ..,
    unary_bufs_sub .., unary_bufs_sub .., binary_bufs_sub .., ternary_bufs_sub .., reshape_bufs_sub .., unary_bufs_sub ..,
    binary_bufs_sub .., nullary_bufs_sub .., unary_bufs_sub .., nullary_bufs_sub .., unary_bufs_sub .., binary_bufs_sub ..,
    nullary_bufs_sub .., unary_bufs_sub .., binary_bufs_sub .., ternary_bufs_sub .., unary_bufs_sub .., ternary_bufs_sub ..,
    nullary_bufs_sub .., unary_bufs_sub .., binary_bufs_sub .., nullary_bufs_sub .., unary_bufs_sub .., binary_bufs_sub ..,
    ternary_bufs_sub .., unary_bufs_sub .., ternary_bufs_sub .., binary_bufs_sub .., unary_bufs_sub .., unary_bufs_sub ..,
    binary_bufs_sub .., nullary_bufs_sub .., unary_bufs_sub .., binary_bufs_sub ..⟩

/-- The first result's buffer after the operations is the composed term of the four arguments: each operation's result
    read at its own buffer, every other buffer as it was, and the typed references' transports the identity at these
    literal references. -/
theorem nodes_eq (V : Valuation τ sig (Elt F)) :
    after ops V (main_v23 : DevRef τ sig)
      = refNodes (V (main_arg0 : DevRef τ sig)) (V (main_arg1 : DevRef τ sig)) (V (main_arg2 : DevRef τ sig))
          (V (main_arg3 : DevRef τ sig)) := by
  after_results_simp
  rfl

/-- The second result's buffer after the operations is the softplus of the weights. -/
theorem wts_eq (V : Valuation τ sig (Elt F)) :
    after ops V (main_v0 : DevRef τ sig) = refWts (V (main_arg1 : DevRef τ sig)) := by
  after_results_simp
  rfl

/-- No operation writes an argument. -/
theorem arg0_eq (V : Valuation τ sig (Elt F)) :
    after ops V (main_arg0 : DevRef τ sig) = V (main_arg0 : DevRef τ sig) := by
  after_results_simp

theorem arg1_eq (V : Valuation τ sig (Elt F)) :
    after ops V (main_arg1 : DevRef τ sig) = V (main_arg1 : DevRef τ sig) := by
  after_results_simp

theorem arg2_eq (V : Valuation τ sig (Elt F)) :
    after ops V (main_arg2 : DevRef τ sig) = V (main_arg2 : DevRef τ sig) := by
  after_results_simp

theorem arg3_eq (V : Valuation τ sig (Elt F)) :
    after ops V (main_arg3 : DevRef τ sig) = V (main_arg3 : DevRef τ sig) := by
  after_results_simp

/-- Every weakly fair execution of the reference ends with its two results at their terms of the arguments and the four
    arguments as launched. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v23)
        = refNodes (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_v0) = refWts (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  exact (θ_run defs _ _).mono (fun _ h c => ⟨(h c main_v23).trans (nodes_eq _), (h c main_v0).trans (wts_eq _),
      (h c main_arg0).trans (arg0_eq _), (h c main_arg1).trans (arg1_eq _), (h c main_arg2).trans (arg2_eq _),
      (h c main_arg3).trans (arg3_eq _)⟩)
    (run_seq scopedRefs_eq scopedSems_eq defs main (fun _ => ops) main_eq (fun _ => ops_sub) m ρ)

end Cert.ReferenceIdeal.Hand

end
-- ==== Proof.LibScatterMid.lean ====
/-
  A scatter-add of rows along the middle axis, read at an entry, at the ideal values.

  The operand is a `B × N × D` array, the updates a `B × E × D` array, and the indices one column of `E` words: update
  row `e` (all of its `B × D` entries) is added onto operand row `idx e`. At entry `(b, n, k)` the result is the operand's
  entry plus the sum, over the update rows `e` whose index word reads `n`, of the update's entry `(b, e, k)`. A row
  whose word is out of range lands nowhere and adds nothing.
-/
import Idealize.ShloMosaic.PureOps.Ideal.Laws
import Idealize.ShloMosaic.Lib.ValueIdx

noncomputable section

namespace Cert.Lib

open Idealize.ShloMosaic Idealize.ShloMosaic.ValueIdx

/-! ## Where one update entry lands

With the window axes of the updates the outer and inner ones, the middle operand axis the inserted one and the one index
column naming it, update entry `(b', e, k')` starts at `0` on the outer and inner axes and at the word `idx (e, 0)`,
read signed, on the middle one; its window coordinates are `b'`, `0` and `k'`. -/

section
variable {B N E D : ℕ}
  (wf : ScatterDims.WF ⟨3, ![B, N, D]⟩ ⟨2, ![E, 1]⟩ ⟨3, ![B, E, D]⟩ [0, 2] [1] [1] 1)
  (idx : IVec ⟨2, ![E, 1]⟩ 32) (b' : Fin B) (e : Fin E) (k' : Fin D)

/-- The dimension numbers of the statement, as a record of literal lists. -/
private abbrev dm : ScatterDims ⟨3, ![B, N, D]⟩ ⟨2, ![E, 1]⟩ ⟨3, ![B, E, D]⟩ := ⟨[0, 2], [1], [1], 1, wf⟩

private theorem start0 : (dm wf).start (ix3 b' e k') idx 0 = 0 := by
  rfl
private theorem start2 : (dm wf).start (ix3 b' e k') idx 2 = 0 := by
  rfl
private theorem window0 : (dm wf).window (ix3 b' e k') 0 = b'.val := by
  rfl
private theorem window1 : (dm wf).window (ix3 b' e k') 1 = 0 := by
  rfl
private theorem window2 : (dm wf).window (ix3 b' e k') 2 = k'.val := by
  rfl
/-- The scatter-indices index update entry `(b', e, k')` reads its one start component at is `(e, 0)`. -/
private theorem siIdx0 : (dm wf).siIdx (ix3 b' e k') ⟨0, Nat.one_pos⟩ = ix2 e 0 := by
  funext a; refine Fin.ext ?_
  match a with
  | ⟨0, _⟩ => rfl
  | ⟨1, _⟩ => rfl
private theorem start1 : (dm wf).start (ix3 b' e k') idx 1 = (idx (ix2 e 0)).toInt := by
  unfold ScatterDims.start
  rw [dif_pos (show (1 : Fin 3) ∈ [(1 : Fin 3)] from List.mem_singleton.mpr rfl)]
  exact congrArg (fun q => (idx q).toInt) (siIdx0 wf b' e k')

/-- Update entry `(b', e, k')` lands at operand entry `(b, n, k)` exactly when `b' = b`, `k' = k` and the index word of
    row `e` reads `n`: the sum of start and window is `b'`, the word and `k'` on the three axes, and it is in range on
    the middle axis where it equals `n < N`. -/
private theorem resultIdx_mid (b : Fin B) (n : Fin N) (k : Fin D) :
    (dm wf).resultIdx? (ix3 b' e k') idx = some (ix3 b n k)
      ↔ b' = b ∧ (idx (ix2 e (0 : Fin 1))).toInt = (n.val : Int) ∧ k' = k := by
  unfold ScatterDims.resultIdx?
  split
  · rename_i h
    rw [Option.some.injEq]
    constructor
    · intro hf
      have h0 := congrArg (fun f => (f 0).val) hf
      have h1 := congrArg (fun f => (f 1).val) hf
      have h2 := congrArg (fun f => (f 2).val) hf
      have g1 := (h 1).1
      simp only [start0, start1, start2, window0, window1, window2] at h0 h1 h2 g1
      refine ⟨Fin.ext ?_, ?_, Fin.ext ?_⟩
      · change _ = b.val at h0; omega
      · change _ = n.val at h1; omega
      · change _ = k.val at h2; omega
    · rintro ⟨rfl, hn, rfl⟩
      funext a; refine Fin.ext ?_
      match a with
      | ⟨0, _⟩ => show ((dm wf).start (ix3 b' e k') idx 0 + (dm wf).window (ix3 b' e k') 0).toNat = b'.val; rw [start0, window0]; omega
      | ⟨1, _⟩ => show ((dm wf).start (ix3 b' e k') idx 1 + (dm wf).window (ix3 b' e k') 1).toNat = n.val; rw [start1, window1, hn]; omega
      | ⟨2, _⟩ => show ((dm wf).start (ix3 b' e k') idx 2 + (dm wf).window (ix3 b' e k') 2).toNat = k'.val; rw [start2, window2]; omega
  · rename_i h
    constructor
    · intro hf; exact absurd hf (by simp)
    · rintro ⟨rfl, hn, rfl⟩
      refine absurd (fun a => ?_) h
      match a with
      | ⟨0, _⟩ =>
        show 0 ≤ (dm wf).start (ix3 b' e k') idx 0 + (dm wf).window (ix3 b' e k') 0 ∧ (dm wf).start (ix3 b' e k') idx 0 + (dm wf).window (ix3 b' e k') 0 < (B : Int)
        rw [start0, window0]; have := b'.isLt; omega
      | ⟨1, _⟩ =>
        show 0 ≤ (dm wf).start (ix3 b' e k') idx 1 + (dm wf).window (ix3 b' e k') 1 ∧ (dm wf).start (ix3 b' e k') idx 1 + (dm wf).window (ix3 b' e k') 1 < (N : Int)
        rw [start1, window1, hn]; have := n.isLt; omega
      | ⟨2, _⟩ =>
        show 0 ≤ (dm wf).start (ix3 b' e k') idx 2 + (dm wf).window (ix3 b' e k') 2 ∧ (dm wf).start (ix3 b' e k') idx 2 + (dm wf).window (ix3 b' e k') 2 < (D : Int)
        rw [start2, window2]; have := k'.isLt; omega
end

/-! ## A sum over a rank-3 index set -/

/-- A rank-3 index set is the product of its three coordinate ranges … -/
private def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
private theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-! ## The scatter-add at an entry

The sum over the update entries that land at `(b, n, k)` is a triple sum of an `if`; with the row axis outermost, the
outer and inner coordinates are pinned to `b` and `k`, which leaves the sum over the rows whose word reads `n`. -/

/-- A scatter-add whose update windows are the outer and inner axes and whose one index column names the middle
    axis, read at entry `(b, n, k)`. -/
theorem scatterAdd_mid_apply {B N E D : ℕ} (d : ScatterDims ⟨3, ![B, N, D]⟩ ⟨2, ![E, 1]⟩ ⟨3, ![B, E, D]⟩)
    (huw : d.updateWindowDims = [0, 2]) (hiw : d.insertedWindowDims = [1])
    (hsd : d.scatterDimsToOperandDims = [1]) (hiv : d.indexVectorDim = 1)
    (x : (⟨3, ![B, N, D]⟩ : Shape).Idx → EReal) (idx : IVec ⟨2, ![E, 1]⟩ 32) (upd : (⟨3, ![B, E, D]⟩ : Shape).Idx → EReal)
    (b : Fin B) (n : Fin N) (k : Fin D) :
    Host.scatterAdd (F := Ideal) (φ := .f32) d x idx upd (ix3 b n k)
      = x (ix3 b n k) + ∑ e : Fin E, if (idx (ix2 e (0 : Fin 1))).toInt = (n.val : Int) then upd (ix3 b e k) else 0 := by
  obtain ⟨uw, iw, sd, iv, wf⟩ := d
  subst huw hiw hsd hiv
  show x (ix3 b n k) + ∑ j ∈ Finset.univ.filter (fun j => (dm wf).resultIdx? j idx = some (ix3 b n k)), upd j = _
  congr 1
  rw [Finset.sum_filter, sum_idx3, Finset.sum_comm]
  refine Finset.sum_congr rfl fun e _ => ?_
  simp only [resultIdx_mid]
  by_cases hn : (idx (ix2 e (0 : Fin 1))).toInt = (n.val : Int)
  · simp only [hn, true_and, if_true]
    rw [Finset.sum_eq_single b]
    · rw [Finset.sum_eq_single k]
      · simp
      · intro k' _ hk; simp [hk]
      · intro h; exact absurd (Finset.mem_univ k) h
    · intro b' _ hb; simp [hb]
    · intro h; exact absurd (Finset.mem_univ b) h
  · simp [hn]

end Cert.Lib

end
-- ==== Proof.RValue.lean ====
/-
  The reference's two result terms are the specification's functions, index by index, on the extended reals.
-/
import proofs.«143436_g3865470566685_cont_8to1_b_833_3_alg».proof.Proof.RTerm
import proofs.«143436_g3865470566685_cont_8to1_b_833_3_alg».proof.Proof.Gen.ReferenceIdeal
import proofs.«143436_g3865470566685_cont_8to1_b_833_3_alg».proof.Proof.Spec
import proofs.«143436_g3865470566685_cont_8to1_b_833_3_alg».proof.Proof.LibScatterMid
import Idealize.ShloMosaic.PureOps.Ideal.Laws
import Idealize.ShloMosaic.Lib.ValueIdx
import Idealize.ShloMosaic.Lib.Pipeline.Value

noncomputable section

namespace Cert.ReferenceIdeal.Hand

open Cert.ReferenceIdeal Cert.ReferenceIdeal.Gen Idealize.ShloMosaic Idealize.ShloMosaic.ValueIdx

/-! ## The softplus weights -/

/-- The zero row reads the zero word everywhere. -/
private theorem zero36_apply (i : S36.Idx) : zero36 (F := Ideal) i = Spec.zeroE := rfl

/-- A number is never different from itself, so the test that guards the softplus never fires. -/
private theorem cmp_une_self (v : EReal) : Ideal.cmp .une v v = 0#1 := by
  simp [Ideal.cmp]

/-- The softplus call's result is the specification's vector of weights. -/
theorem refWts_eq (ew : S36.Idx → EReal) : refWts (F := Ideal) ew = Spec.wts ew := by
  funext i
  simp only [refWts, select_apply, cmpf_apply, Ideal.cmpf_def, cmp_une_self, select_zero, addf_apply, maximumf_apply,
    subf_apply, zero36_apply, Host.log1p, Host.exp, Host.negf, Host.absf, Ideal.hostUnary_exp_def, Ideal.hostUnary_log1p_def,
    Ideal.hostNegf_def, Ideal.hostAbsf_def, Ideal.absf_def, Ideal.negf_def, Spec.wts, Spec.softplus]

/-! ## The two index columns -/

/-- The source column reads, at edge `e`, the node the edge leaves. -/
private theorem srcIdx_toInt : ∀ e : Fin 36, (srcIdx (ix2 e (0 : Fin 1))).toInt = ((Spec.srcNode e).val : Int) := by
  decide

/-- The destination column reads, at edge `e`, the node the edge enters. -/
private theorem dstIdx_toInt : ∀ e : Fin 36, (dstIdx (ix2 e (0 : Fin 1))).toInt = ((Spec.dstNode e).val : Int) := by
  decide

/-- Equality of two nodes as integers is their equality. -/
private theorem ite_node (m n : Fin 12) (a : EReal) :
    (if ((m.val : Int) = (n.val : Int)) then a else 0) = if m = n then a else 0 := by
  by_cases h : m = n
  · rw [if_pos h, if_pos (by rw [h])]
  · rw [if_neg h, if_neg (fun h' => h (Fin.ext (by exact_mod_cast h')))]

private theorem ite_src (e : Fin 36) (n : Fin 12) (a : EReal) :
    (if (srcIdx (ix2 e (0 : Fin 1))).toInt = (n.val : Int) then a else 0) = if Spec.srcNode e = n then a else 0 := by
  rw [srcIdx_toInt, ite_node]

private theorem ite_dst (e : Fin 36) (n : Fin 12) (a : EReal) :
    (if (dstIdx (ix2 e (0 : Fin 1))).toInt = (n.val : Int) then a else 0) = if Spec.dstNode e = n then a else 0 := by
  rw [dstIdx_toInt, ite_node]

/-! ## The scaled features and their accumulation -/

/-- The scaled features at an entry: the feature times its edge's softplus weight. -/
private theorem refScaled_apply (x : S16384x36x128.Idx → EReal) (ew : S36.Idx → EReal) (b : Fin 16384) (e : Fin 36) (k : Fin 128) :
    refScaled (F := Ideal) x ew (ix3 b e k) = Spec.wfeat x ew b e k := by
  unfold refScaled
  rw [mulf_apply,
    broadcastInDim_apply (![0, 1, 2] : Fin 3 → Fin 3) bcast_S1x36x1_S16384x36x128_0_1_2 _ (ix3 b e k)
      (ix3 (0 : Fin 1) e (0 : Fin 1)) (fun a => by match a with | ⟨0, _⟩ => rfl | ⟨1, _⟩ => rfl | ⟨2, _⟩ => rfl),
    shapeCast_apply (refWts (F := Ideal) ew) shapeCasts_S36_S1x36x1 (ix3 (0 : Fin 1) e (0 : Fin 1)) (ix1 e)
      (by rw [Shape.rowMajor_val_one, Shape.rowMajor_val_three]; simp),
    refWts_eq]
  rfl

/-- The zero array reads the zero word everywhere. -/
private theorem zeroNodes_apply (i : S16384x12x128.Idx) :
    broadcastInDim S16384x12x128 ![] bcast_S_S16384x12x128 (constant (F := Ideal) S_ .f32 0x00000000#32) i = Spec.zeroE := rfl

/-- The accumulated features at an entry: the scaled features of the edges leaving the node plus those entering it. -/
private theorem refAcc_apply (x : S16384x36x128.Idx → EReal) (ew : S36.Idx → EReal) (b : Fin 16384) (n : Fin 12) (k : Fin 128) :
    refAcc (F := Ideal) x ew (ix3 b n k) = Spec.nodeFeat x ew b n k := by
  unfold refAcc
  rw [Cert.Lib.scatterAdd_mid_apply scatter_S16384x12x128_S36x1_S16384x36x128_02_1_1_1 rfl rfl rfl rfl,
    Cert.Lib.scatterAdd_mid_apply scatter_S16384x12x128_S36x1_S16384x36x128_02_1_1_1 rfl rfl rfl rfl, zeroNodes_apply, Spec.zeroE_eq, zero_add]
  simp only [ite_src, ite_dst, refScaled_apply]
  rfl

/-! ## The contraction with the matrix -/

private theorem lhs_dot_0 (i : S16384x12x128.Idx) (q : dot_S16384x12x128_S128x128_S16384x12x128_2_1_01_0_n_n.contr.Idx) :
    (dot_S16384x12x128_S128x128_S16384x12x128_2_1_01_0_n_n.lhsIdx i q 0).val = (i 0).val := by
  unfold DotDims.lhsIdx
  rw [dif_neg (show ¬(0 : Fin S16384x12x128.rank) ∈ dot_S16384x12x128_S128x128_S16384x12x128_2_1_01_0_n_n.lhsBatch by decide),
    dif_pos (show (0 : Fin S16384x12x128.rank) ∈ dot_S16384x12x128_S128x128_S16384x12x128_2_1_01_0_n_n.lhsNonContracting by decide)]
  rfl

private theorem lhs_dot_1 (i : S16384x12x128.Idx) (q : dot_S16384x12x128_S128x128_S16384x12x128_2_1_01_0_n_n.contr.Idx) :
    (dot_S16384x12x128_S128x128_S16384x12x128_2_1_01_0_n_n.lhsIdx i q 1).val = (i 1).val := by
  unfold DotDims.lhsIdx
  rw [dif_neg (show ¬(1 : Fin S16384x12x128.rank) ∈ dot_S16384x12x128_S128x128_S16384x12x128_2_1_01_0_n_n.lhsBatch by decide),
    dif_pos (show (1 : Fin S16384x12x128.rank) ∈ dot_S16384x12x128_S128x128_S16384x12x128_2_1_01_0_n_n.lhsNonContracting by decide)]
  rfl

private theorem lhs_dot_2 (i : S16384x12x128.Idx) (q : dot_S16384x12x128_S128x128_S16384x12x128_2_1_01_0_n_n.contr.Idx) :
    (dot_S16384x12x128_S128x128_S16384x12x128_2_1_01_0_n_n.lhsIdx i q 2).val = (q ⟨0, by decide⟩).val :=
  dot_S16384x12x128_S128x128_S16384x12x128_2_1_01_0_n_n.lhsIdx_val_of_single rfl i q

private theorem rhs_dot_0 (i : S16384x12x128.Idx) (q : dot_S16384x12x128_S128x128_S16384x12x128_2_1_01_0_n_n.contr.Idx) :
    (dot_S16384x12x128_S128x128_S16384x12x128_2_1_01_0_n_n.rhsIdx i q 0).val = (i 2).val := by
  unfold DotDims.rhsIdx
  rw [dif_neg (show ¬(0 : Fin S128x128.rank) ∈ dot_S16384x12x128_S128x128_S16384x12x128_2_1_01_0_n_n.rhsBatch by decide),
    dif_pos (show (0 : Fin S128x128.rank) ∈ dot_S16384x12x128_S128x128_S16384x12x128_2_1_01_0_n_n.rhsNonContracting by decide)]
  rfl

private theorem rhs_dot_1 (i : S16384x12x128.Idx) (q : dot_S16384x12x128_S128x128_S16384x12x128_2_1_01_0_n_n.contr.Idx) :
    (dot_S16384x12x128_S128x128_S16384x12x128_2_1_01_0_n_n.rhsIdx i q 1).val = (q ⟨0, by decide⟩).val :=
  dot_S16384x12x128_S128x128_S16384x12x128_2_1_01_0_n_n.rhsIdx_val_of_single rfl i q

/-- The contraction at an entry: the sum, over the shared coordinate, of the left entry times the matrix's entry
    in row `o`. -/
private theorem dot_apply (A : FVec Ideal S16384x12x128 .f32) (W : FVec Ideal S128x128 .f32) (b : Fin 16384) (n : Fin 12) (o : Fin 128) :
    Host.dotGeneral dot_S16384x12x128_S128x128_S16384x12x128_2_1_01_0_n_n none A W (ix3 b n o) = ∑ k : Fin 128, A (ix3 b n k) * W (ix2 o k) := by
  show FloatOps.dotGeneral _ none _ A W (ix3 b n o) = _
  rw [Ideal.dotGeneral_apply, ← Equiv.sum_comp (contrEquiv1 dot_S16384x12x128_S128x128_S16384x12x128_2_1_01_0_n_n 128 rfl rfl).symm]
  refine Finset.sum_congr rfl fun k _ => ?_
  have hk := contrEquiv1_symm_val dot_S16384x12x128_S128x128_S16384x12x128_2_1_01_0_n_n 128 rfl rfl k
  have el : dot_S16384x12x128_S128x128_S16384x12x128_2_1_01_0_n_n.lhsIdx (ix3 b n o) ((contrEquiv1 dot_S16384x12x128_S128x128_S16384x12x128_2_1_01_0_n_n 128 rfl rfl).symm k) = ix3 b n k := funext fun a => Fin.ext (by
    match a with
    | ⟨0, _⟩ => exact lhs_dot_0 _ _
    | ⟨1, _⟩ => exact lhs_dot_1 _ _
    | ⟨2, _⟩ => exact (lhs_dot_2 _ _).trans hk)
  have er : dot_S16384x12x128_S128x128_S16384x12x128_2_1_01_0_n_n.rhsIdx (ix3 b n o) ((contrEquiv1 dot_S16384x12x128_S128x128_S16384x12x128_2_1_01_0_n_n 128 rfl rfl).symm k) = ix2 o k := funext fun a => Fin.ext (by
    match a with
    | ⟨0, _⟩ => exact rhs_dot_0 _ _
    | ⟨1, _⟩ => exact (rhs_dot_1 _ _).trans hk)
  rw [el, er]

/-! ## The first result -/

/-- The bias laid along the last axis reads the bias at the output entry. -/
private theorem bias_apply (bias : S128.Idx → EReal) (b : Fin 16384) (n : Fin 12) (o : Fin 128) :
    broadcastInDim S16384x12x128 ![0, 1, 2] bcast_S1x1x128_S16384x12x128_0_1_2
      (broadcastInDim S1x1x128 ![2] bcast_S128_S1x1x128_2 bias) (ix3 b n o) = bias (ix1 o) := by
  rw [broadcastInDim_apply (![0, 1, 2] : Fin 3 → Fin 3) bcast_S1x1x128_S16384x12x128_0_1_2 _ (ix3 b n o)
      (ix3 (0 : Fin 1) (0 : Fin 1) o) (fun a => by match a with | ⟨0, _⟩ => rfl | ⟨1, _⟩ => rfl | ⟨2, _⟩ => rfl),
    broadcastInDim_apply (![2] : Fin 1 → Fin 3) bcast_S128_S1x1x128_2 bias (ix3 (0 : Fin 1) (0 : Fin 1) o)
      (ix1 o) (fun a => by match a with | ⟨0, _⟩ => rfl)]

/-- The reference's first result is the specification's. -/
theorem refNodes_eq (x : S16384x36x128.Idx → EReal) (ew : S36.Idx → EReal) (W : S128x128.Idx → EReal) (b : S128.Idx → EReal) :
    refNodes (F := Ideal) x ew W b = Spec.nodes x ew W b := by
  funext i
  obtain ⟨p, n, o, rfl⟩ : ∃ (p : Fin 16384) (n : Fin 12) (o : Fin 128), i = ix3 p n o := ⟨i 0, i 1, i 2, eq_ix3 i⟩
  unfold refNodes
  rw [maximumf_apply, addf_apply, bias_apply, zeroNodes_apply, dot_apply]
  simp only [refAcc_apply]
  rfl

end Cert.ReferenceIdeal.Hand

end
-- ==== Proof.lean ====
/-
  The kernel against its reference: a weighted sum of edge features onto twelve nodes, a linear layer and a cut at
  zero, together with the softplus weights themselves.

  The kernel works in 64 steps of 256 batch rows; in each it loads the 36 weighted feature slices once, adds each into
  the accumulators of the edge's two nodes, multiplies the twelve accumulators with the transposed matrix, adds the
  bias and cuts at zero. The reference scatter-adds the weighted features onto a zero array by source node and by
  destination node and contracts the whole array with the matrix. On the extended reals both are the function of
  `Proof/Spec.lean`: a node's two scatter sums are its six edges' terms, and the sum over the contracted axis is the
  same on both sides, so no law beyond the commutativity and associativity of addition is used and the precondition
  is never opened.
-/
import proofs.«143436_g3865470566685_cont_8to1_b_833_3_alg».proof.Defs
import proofs.«143436_g3865470566685_cont_8to1_b_833_3_alg».proof.Proof.Gen.Kernel
import proofs.«143436_g3865470566685_cont_8to1_b_833_3_alg».proof.Proof.Gen.Kernel.Skeleton
import proofs.«143436_g3865470566685_cont_8to1_b_833_3_alg».proof.Proof.Gen.Kernel.Launch
import proofs.«143436_g3865470566685_cont_8to1_b_833_3_alg».proof.Proof.Gen.Kernel.Points
import proofs.«143436_g3865470566685_cont_8to1_b_833_3_alg».proof.Proof.Gen.Kernel.Frame
import proofs.«143436_g3865470566685_cont_8to1_b_833_3_alg».proof.Proof.Gen.KernelIdeal
import proofs.«143436_g3865470566685_cont_8to1_b_833_3_alg».proof.Proof.Gen.KernelIdeal.Skeleton
import proofs.«143436_g3865470566685_cont_8to1_b_833_3_alg».proof.Proof.Gen.KernelIdeal.Launch
import proofs.«143436_g3865470566685_cont_8to1_b_833_3_alg».proof.Proof.Gen.KernelIdeal.Points
import proofs.«143436_g3865470566685_cont_8to1_b_833_3_alg».proof.Proof.Gen.KernelIdeal.Frame
import proofs.«143436_g3865470566685_cont_8to1_b_833_3_alg».proof.Proof.Gen.ReferenceIdeal
import proofs.«143436_g3865470566685_cont_8to1_b_833_3_alg».proof.Proof.Gen.Pre_finite_inputs
import proofs.«143436_g3865470566685_cont_8to1_b_833_3_alg».proof.Proof.KRun
import proofs.«143436_g3865470566685_cont_8to1_b_833_3_alg».proof.Proof.RRun
import proofs.«143436_g3865470566685_cont_8to1_b_833_3_alg».proof.Proof.RValue
import Idealize.ShloMosaic.Adequacy
import Idealize.ShloMosaic.Init

noncomputable section

namespace Cert.Proof

open Idealize.ShloMosaic Idealize.SL.Sem

/-- The word-level kernel runs and keeps its arguments. -/
theorem frame_k : Cert.frame_Kernel := fun m ρ _ => Cert.Kernel.Gen.frame m ρ

/-- The idealized kernel runs and keeps its arguments. -/
theorem frame_ki : Cert.frame_KernelIdeal := fun m ρ _ => Cert.KernelIdeal.Gen.frame m ρ

/-- The reference runs and keeps its arguments: its run, with the two results dropped. -/
theorem frame_ri : Cert.frame_ReferenceIdeal := fun m ρ _ =>
  (θ_run Cert.ReferenceIdeal.defs _ _).mono (fun _ h c => (h c).2.2) (Cert.ReferenceIdeal.Hand.run (F := Ideal) m ρ)

/-- Both idealized programs end at the specification's two results of their (agreeing) arguments. -/
theorem algebraic : Cert.algebraic_KernelIdeal_ReferenceIdeal := by
  intro m ρ m' ρ' _ hagree
  refine ⟨_, _, Cert.KernelIdeal.Bridge.run m ρ, ?_⟩
  refine (θ_run Cert.ReferenceIdeal.defs _ _).mono (fun _ h c => ⟨?_, ?_, (h c).2.2⟩)
    (Cert.ReferenceIdeal.Hand.run (F := Ideal) m' ρ')
  · rw [(h c).1, Cert.ReferenceIdeal.Hand.refNodes_eq, (hagree c).1, (hagree c).2.1, (hagree c).2.2.1, (hagree c).2.2.2]
  · rw [(h c).2.1, Cert.ReferenceIdeal.Hand.refWts_eq, (hagree c).2.1]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
